-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1x1024x128 : Shape := ⟨3, ![1, 1024, 128]⟩
abbrev S384x100000 : Shape := ⟨2, ![384, 100000]⟩
abbrev S384 : Shape := ⟨1, ![384]⟩
abbrev S384x128 : Shape := ⟨2, ![384, 128]⟩
abbrev S100000x128 : Shape := ⟨2, ![100000, 128]⟩
abbrev S100000 : Shape := ⟨1, ![100000]⟩
abbrev S_ : Shape := ⟨0, ![]⟩

class Facts : Prop where
  bcast_S_S1x1024x128 : S_.BroadcastsInDim S1x1024x128 (![] : Fin 0 → Fin S1x1024x128.rank)
  reducesTo_S1x1024x128_S_d0_1_2 : S1x1024x128.ReducesTo [0, 1, 2] S_
  h_S_ : 0 < S_.numel
  bcast_S_S384x100000 : S_.BroadcastsInDim S384x100000 (![] : Fin 0 → Fin S384x100000.rank)
  reducesTo_S384x100000_S_d0_1 : S384x100000.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg0 : IVec S1024 32) (main_v33 : IVec S_ 1) : IVec S_ 1 :=
  let main_c_12 : IVec S_ 32 := constantI S_ 32 0#32
  let main_v34 : IVec S1024 32 := broadcastInDim S1024 ![] bcast_S_S1024 main_c_12
  let main_v35 : IVec S1024 1 := cmpi .sge main_arg0 main_v34
  let main_c_13 : IVec S_ 32 := constantI S_ 32 100000#32
  let main_v36 : IVec S1024 32 := broadcastInDim S1024 ![] bcast_S_S1024 main_c_13
  let main_v37 : IVec S1024 1 := cmpi .slt main_arg0 main_v36
  let main_v38 : IVec S1024 1 := andi main_v35 main_v37
  let main_c_14 : IVec S_ 1 := constantI S_ 1 1#1
  let main_v39 : IVec S_ 1 := (fun x v => Host.reduce IntOp.andi x v reducesTo_S1024_S_d0 h_S_) main_v38 main_c_14
  let main_v40 : IVec S_ 1 := andi main_v33 main_v39
  main_v40

def fn_part1 {F : FTy → Type} [FloatOps F] (main_arg0 : IVec S1024 32) (main_arg5 : FVec F S384 .f32) (main_arg6 : FVec F S100000x128 .f32) (main_arg7 : FVec F S100000 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S100000x128 .f32 := Host.absf main_arg6
  let main_cst_8 : FVec F S_ .f32 := constant S_ .f32 0x7F800000#32
  let main_v25 : FVec F S100000x128 .f32 := broadcastInDim S100000x128 ![] bcast_S_S100000x128 main_cst_8
  let main_v26 : IVec S100000x128 1 := cmpf .olt main_v24 main_v25
  let main_c_9 : IVec S_ 1 := constantI S_ 1 1#1
  let main_v27 : IVec S_ 1 := (fun x v => Host.reduce IntOp.andi x v reducesTo_S100000x128_S_d0_1 h_S_) main_v26 main_c_9
  let main_v28 : IVec S_ 1 := andi main_v23 main_v27
  let main_v29 : FVec F S100000 .f32 := Host.absf main_arg7
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg0 main_v33

def fn {F : FTy → Type} [FloatOps F] (main_arg0 : IVec S1024 32) (main_arg1 : FVec F S1x1024x128 .f32) (main_arg2 : FVec F S384x100000 .f32) (main_arg3 : FVec F S384 .f32) (main_arg4 : FVec F S384x128 .f32) (main_arg5 : FVec F S384 .f32) (main_arg6 : FVec F S100000x128 .f32) (main_arg7 : FVec F S100000 .f32) : IVec S_ 1 :=
  let main_v0 : FVec F S1x1024x128 .f32 := Host.absf main_arg1
  let main_cst : FVec F S_ .f32 := constant S_ .f32 0x7F800000#32
  let main_v1 : FVec F S1x1024x128 .f32 := broadcastInDim S1x1024x128 ![] bcast_S_S1x1024x128 main_cst
  let main_v2 : IVec S1x1024x128 1 := cmpf .olt main_v0 main_v1
  let main_c : IVec S_ 1 := constantI S_ 1 1#1
  let main_v3 : IVec S_ 1 := (fun x v => Host.reduce IntOp.andi x v reducesTo_S1x1024x128_S_d0_1_2 h_S_) main_v2 main_c
  let main_v4 : FVec F S384x100000 .f32 := Host.absf main_arg2
  let main_cst_0 : FVec F S_ .f32 := constant S_ .f32 0x7F800000#32
  let main_v5 : FVec F S384x100000 .f32 := broadcastInDim S384x100000 ![] bcast_S_S384x100000 main_cst_0
  let main_v6 : IVec S384x100000 1 := cmpf .olt main_v4 main_v5
  let main_c_1 : IVec S_ 1 := constantI S_ 1 1#1
  let main_v7 : IVec S_ 1 := (fun x v => Host.reduce IntOp.andi x v reducesTo_S384x100000_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg0 main_arg5 main_arg6 main_arg7 main_v13 main_v16
-- ==== Kernel.lean ====
abbrev S1024 : Shape := ⟨1, ![1024]⟩
abbrev S1x1024x128 : Shape := ⟨3, ![1, 1024, 128]⟩
abbrev S384x100000 : Shape := ⟨2, ![384, 100000]⟩
abbrev S384 : Shape := ⟨1, ![384]⟩
abbrev S384x128 : Shape := ⟨2, ![384, 128]⟩
abbrev S100000x128 : Shape := ⟨2, ![100000, 128]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S384x1024 : Shape := ⟨2, ![384, 1024]⟩
abbrev S1024x384 : Shape := ⟨2, ![1024, 384]⟩
abbrev S1x384 : Shape := ⟨2, ![1, 384]⟩
abbrev S1024x128 : Shape := ⟨2, ![1024, 128]⟩
abbrev S128x384 : Shape := ⟨2, ![128, 384]⟩
abbrev S1x100000 : Shape := ⟨2, ![1, 100000]⟩
abbrev S1024x100000 : Shape := ⟨2, ![1024, 100000]⟩
abbrev S2048x128 : Shape := ⟨2, ![2048, 128]⟩
abbrev S1x2048 : Shape := ⟨2, ![1, 2048]⟩
abbrev S1024x2048 : Shape := ⟨2, ![1024, 2048]⟩

abbrev nBuf : Space → Nat
  | .hbm => 77
  | .vmem => 7
  | .smem => 0
  | _ => 0

abbrev bufTy : (tb : Table) → Fin (tcTables nBuf tb) → BufTy
  | .hbm, ⟨0, _⟩ => ⟨S1024, .i32⟩
  | .hbm, ⟨1, _⟩ => ⟨S1x1024x128, .f32⟩
  | .hbm, ⟨2, _⟩ => ⟨S384x100000, .f32⟩
  | .hbm, ⟨3, _⟩ => ⟨S384, .f32⟩
  | .hbm, ⟨4, _⟩ => ⟨S384x128, .f32⟩
  | .hbm, ⟨5, _⟩ => ⟨S384, .f32⟩
  | .hbm, ⟨6, _⟩ => ⟨S100000x128, .f32⟩
  | .hbm, ⟨7, _⟩ => ⟨S100000, .f32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1x1, .i32⟩
  | .hbm, ⟨21, _⟩ => ⟨S1024x1, .i32⟩
  | .hbm, ⟨22, _⟩ => ⟨S1024x1, .i1⟩
  | .hbm, ⟨23, _⟩ => ⟨S1024x1, .i1⟩
  | .hbm, ⟨24, _⟩ => ⟨S_, .i1⟩
  | .hbm, ⟨25, _⟩ => ⟨S1024, .i1⟩
  | .hbm, ⟨26, _⟩ => ⟨S384x1024, .f32⟩
  | .hbm, ⟨27, _⟩ => ⟨S384x1024, .i1⟩
  | .hbm, ⟨28, _⟩ => ⟨S_, .f32⟩
  | .hbm, ⟨29, _⟩ => ⟨S384x1024, .f32⟩
  | .hbm, ⟨30, _⟩ => ⟨S384x1024, .f32⟩
  | .hbm, ⟨31, _⟩ => ⟨S1024x384, .f32⟩
  | .hbm, ⟨32, _⟩ => ⟨S1x384, .f32⟩
  | .hbm, ⟨33, _⟩ => ⟨S1024x384, .f32⟩
  | .hbm, ⟨34, _⟩ => ⟨S1024x384, .f32⟩
  | .hbm, ⟨35, _⟩ => ⟨S1024x128, .f32⟩
  | .hbm, ⟨36, _⟩ => ⟨S128x384, .f32⟩
  | .hbm, ⟨37, _⟩ => ⟨S1024x384, .f32⟩
  | .hbm, ⟨38, _⟩ => ⟨S1x384, .f32⟩
  | .hbm, ⟨39, _⟩ => ⟨S1024x384, .f32⟩
  | .hbm, ⟨40, _⟩ => ⟨S1024x384, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S1024x128, .f32⟩
  | .hbm, ⟨46, _⟩ => ⟨S1024x128, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S_, .f32⟩
  | .hbm, ⟨51, _⟩ => ⟨S1024x128, .f32⟩
  | .hbm, ⟨52, _⟩ => ⟨S1024x128, .f32⟩
  | .hbm, ⟨53, _⟩ => ⟨S_, .f32⟩
  | .hbm, ⟨54, _⟩ => ⟨S1024x128, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S1024x128, .f32⟩
  | .hbm, ⟨59, _⟩ => ⟨S_, .f32⟩
  | .hbm, ⟨60, _⟩ => ⟨S1024x128, .f32⟩
  | .hbm, ⟨61, _⟩ => ⟨S1024x128, .f32⟩
  | .hbm, ⟨62, _⟩ => ⟨S_, .f32⟩
  | .hbm, ⟨63, _⟩ => ⟨S1024x128, .f32⟩
  | .hbm, ⟨64, _⟩ => ⟨S1024x128, .f32⟩
  | .hbm, ⟨65, _⟩ => ⟨S1024x128, .f32⟩
  | .hbm, ⟨66, _⟩ => ⟨S1024x128, .f32⟩
  | .hbm, ⟨67, _⟩ => ⟨S1024x128, .f32⟩
  | .hbm, ⟨68, _⟩ => ⟨S_, .f32⟩
  | .hbm, ⟨69, _⟩ => ⟨S1024x128, .f32⟩
  | .hbm, ⟨70, _⟩ => ⟨S1024x128, .f32⟩
  | .hbm, ⟨71, _⟩ => ⟨S1024x128, .f32⟩
  | .hbm, ⟨72, _⟩ => ⟨S1024x128, .f32⟩
  | .hbm, ⟨73, _⟩ => ⟨S1024x128, .f32⟩
  | .hbm, ⟨74, _⟩ => ⟨S1x100000, .f32⟩
  | .hbm, ⟨75, _⟩ => ⟨S1024x100000, .f32⟩
  | .hbm, ⟨76, _⟩ => ⟨S1x1024x128, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_v21 : Ref sig .tc := ⟨.hbm, 52, rfl⟩
abbrev main_cst_0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_1 : Ref sig .tc := ⟨.hbm, 59, rfl⟩
abbrev main_v27 : Ref sig .tc := ⟨.hbm, 60, rfl⟩
abbrev main_v28 : Ref sig .tc := ⟨.hbm, 61, rfl⟩
abbrev main_cst_2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S384x1024_1 : S1024.BroadcastsInDim S384x1024 (![1] : Fin 1 → Fin S384x1024.rank)
  bcast_S_S384x1024 : S_.BroadcastsInDim S384x1024 (![] : Fin 0 → Fin S384x1024.rank)
  transposes_S384x1024_S1024x384_1_0 : S384x1024.Transposes [1, 0] S1024x384
  bcast_S384_S1x384_1 : S384.BroadcastsInDim S1x384 (![1] : Fin 1 → Fin S1x384.rank)
  bcast_S1x384_S1024x384_0_1 : S1x384.BroadcastsInDim S1024x384 (![0, 1] : Fin 2 → Fin S1024x384.rank)
  shapeCasts_S1x1024x128_S1024x128 : S1x1024x128.ShapeCasts S1024x128
  transposes_S384x128_S128x384_1_0 : S384x128.Transposes [1, 0] S128x384
  slices_S1024x384_S1024x128_0_0 : S1024x384.Slices ![0, 0] S1024x128
  slices_S1024x384_S1024x128_0_128 : S1024x384.Slices ![0, 128] S1024x128
  slices_S1024x384_S1024x128_0_256 : S1024x384.Slices ![0, 256] S1024x128
  bcast_S_S1024x128 : S_.BroadcastsInDim S1024x128 (![] : Fin 0 → Fin S1024x128.rank)
  shapeCasts_S100000_S1x100000 : S100000.ShapeCasts S1x100000
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  bcast_S1024x128_S1x1024x128_1_2 : S1024x128.BroadcastsInDim S1x1024x128 (![1, 2] : Fin 2 → Fin S1x1024x128.rank)
  gather_S384x100000_S1024x1_S384x1024_0_1_n_n_1_1_3841_wf : GatherDims.WF S384x100000 S1024x1 S384x1024 [0] [1] [] [1] [] 1 ![384, 1]
  dot_S1024x128_S128x384_S1024x384_1_0_0_1_n_n_wf : DotDims.WF S1024x128 S128x384 S1024x384 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x100000.size a
  hwx0_3 : ∀ i : grid0.Coords, EltTy.bits .f32 = 32 ∨ (Rect.unit (s := S1024x100000) (fun a => cc0_transform_3 i a * S1024x2048.size a) (fun a => (Pipeline.Clip.of (cc0_transform_3 i a) (S1024x2048.size a) (S1024x100000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x100000.size a)).extent (S1024x2048.size a)) fun a => (Nat.zero_add _).trans_le (Pipeline.Clip.extent_le (Pipeline.Clip.ok_of (hstart0_3 i a)))).WholeWords (EltTy.packing .f32)

variable [Facts₀]

def gather_S384x100000_S1024x1_S384x1024_0_1_n_n_1_1_3841 : GatherDims S384x100000 S1024x1 S384x1024 where
  offsetDims := [0]
  collapsedSliceDims := [1]
  operandBatchingDims := []
  startIndicesBatchingDims := []
  startIndexMap := [1]
  indexVectorDim := 1
  sliceSizes := ![384, 1]
  wf := gather_S384x100000_S1024x1_S384x1024_0_1_n_n_1_1_3841_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v38) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg6) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v39) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v40) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024 : Shape := ⟨1, ![1024]⟩
abbrev S1x1024x128 : Shape := ⟨3, ![1, 1024, 128]⟩
abbrev S384x100000 : Shape := ⟨2, ![384, 100000]⟩
abbrev S384 : Shape := ⟨1, ![384]⟩
abbrev S384x128 : Shape := ⟨2, ![384, 128]⟩
abbrev S100000x128 : Shape := ⟨2, ![100000, 128]⟩
abbrev S100000 : Shape := ⟨1, ![100000]⟩
abbrev S100000x384 : Shape := ⟨2, ![100000, 384]⟩
abbrev S_ : Shape := ⟨0, ![]⟩
abbrev S1024x1 : Shape := ⟨2, ![1024, 1]⟩
abbrev S1024x384 : Shape := ⟨2, ![1024, 384]⟩
abbrev S1x384 : Shape := ⟨2, ![1, 384]⟩
abbrev S1024x128 : Shape := ⟨2, ![1024, 128]⟩
abbrev S128x384 : Shape := ⟨2, ![128, 384]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 69
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1x1024x128, .f32⟩
  | .hbm, ⟨2, _⟩ => ⟨S384x100000, .f32⟩
  | .hbm, ⟨3, _⟩ => ⟨S384, .f32⟩
  | .hbm, ⟨4, _⟩ => ⟨S384x128, .f32⟩
  | .hbm, ⟨5, _⟩ => ⟨S384, .f32⟩
  | .hbm, ⟨6, _⟩ => ⟨S100000x128, .f32⟩
  | .hbm, ⟨7, _⟩ => ⟨S100000, .f32⟩
  | .hbm, ⟨8, _⟩ => ⟨S100000x384, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x384, .f32⟩
  | .hbm, ⟨18, _⟩ => ⟨S1x384, .f32⟩
  | .hbm, ⟨19, _⟩ => ⟨S1024x384, .f32⟩
  | .hbm, ⟨20, _⟩ => ⟨S1024x384, .f32⟩
  | .hbm, ⟨21, _⟩ => ⟨S1024x128, .f32⟩
  | .hbm, ⟨22, _⟩ => ⟨S128x384, .f32⟩
  | .hbm, ⟨23, _⟩ => ⟨S1024x384, .f32⟩
  | .hbm, ⟨24, _⟩ => ⟨S1x384, .f32⟩
  | .hbm, ⟨25, _⟩ => ⟨S1024x384, .f32⟩
  | .hbm, ⟨26, _⟩ => ⟨S1024x384, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S_, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S_, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S1024x128, .f32⟩
  | .hbm, ⟨53, _⟩ => ⟨S1024x128, .f32⟩
  | .hbm, ⟨54, _⟩ => ⟨S_, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S1024x128, .f32⟩
  | .hbm, ⟨59, _⟩ => ⟨S1024x128, .f32⟩
  | .hbm, ⟨60, _⟩ => ⟨S128x100000, .f32⟩
  | .hbm, ⟨61, _⟩ => ⟨S1024x100000, .f32⟩
  | .hbm, ⟨62, _⟩ => ⟨S1x100000, .f32⟩
  | .hbm, ⟨63, _⟩ => ⟨S1024x100000, .f32⟩
  | .hbm, ⟨64, _⟩ => ⟨S1024x100000, .f32⟩
  | .hbm, ⟨65, _⟩ => ⟨S_, .f32⟩
  | .hbm, ⟨66, _⟩ => ⟨S1024x100000, .f32⟩
  | .hbm, ⟨67, _⟩ => ⟨S1024x100000, .f32⟩
  | .hbm, ⟨68, _⟩ => ⟨S1x1024x128, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call0_cst : Ref sig .tc := ⟨.hbm, 65, rfl⟩
abbrev main_call0_v0 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  transposes_S384x100000_S100000x384_1_0 : S384x100000.Transposes [1, 0] S100000x384
  bcast_S_S1024 : S_.BroadcastsInDim S1024 (![] : Fin 0 → Fin S1024.rank)
  bcast_S1024_S1024x1_0 : S1024.BroadcastsInDim S1024x1 (![0] : Fin 1 → Fin S1024x1.rank)
  bcast_S384_S1x384_1 : S384.BroadcastsInDim S1x384 (![1] : Fin 1 → Fin S1x384.rank)
  bcast_S1x384_S1024x384_0_1 : S1x384.BroadcastsInDim S1024x384 (![0, 1] : Fin 2 → Fin S1024x384.rank)
  shapeCasts_S1x1024x128_S1024x128 : S1x1024x128.ShapeCasts S1024x128
  transposes_S384x128_S128x384_1_0 : S384x128.Transposes [1, 0] S128x384
  slices_S1024x384_S1024x128_0_0 : S1024x384.Slices ![0, 0] S1024x128
  slices_S1024x384_S1024x128_0_128 : S1024x384.Slices ![0, 128] S1024x128
  slices_S1024x384_S1024x128_0_256 : S1024x384.Slices ![0, 256] S1024x128
  bcast_S_S1024x128 : S_.BroadcastsInDim S1024x128 (![] : Fin 0 → Fin S1024x128.rank)
  transposes_S100000x128_S128x100000_1_0 : S100000x128.Transposes [1, 0] S128x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  bcast_S1024x128_S1x1024x128_1_2 : S1024x128.BroadcastsInDim S1x1024x128 (![1, 2] : Fin 2 → Fin S1x1024x128.rank)
  gather_S100000x384_S1024x1_S1024x384_1_0_n_n_0_1_1384_wf : GatherDims.WF S100000x384 S1024x1 S1024x384 [1] [0] [] [0] [] 1 ![1, 384]
  dot_S1024x128_S128x384_S1024x384_1_0_0_1_n_n_wf : DotDims.WF S1024x128 S128x384 S1024x384 [1] [0] [0] [1] [] []
  dot_S1024x128_S128x100000_S1024x100000_1_0_0_1_n_n_wf : DotDims.WF S1024x128 S128x100000 S1024x100000 [1] [0] [0] [1] [] []

variable [Facts₀]

def gather_S100000x384_S1024x1_S1024x384_1_0_n_n_0_1_1384 : GatherDims S100000x384 S1024x1 S1024x384 where
  offsetDims := [1]
  collapsedSliceDims := [0]
  operandBatchingDims := []
  startIndicesBatchingDims := []
  startIndexMap := [0]
  indexVectorDim := 1
  sliceSizes := ![1, 384]
  wf := gather_S100000x384_S1024x1_S1024x384_1_0_n_n_0_1_1384_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.KernelFrame.lean ====
/-
  The frame of the word-level program, generic in the float instance: every weakly fair execution of @main on the
  TensorCores terminates and leaves each argument array as it was launched.

  The region is one pipeline over 49 points and four windows. Windows 1, 2 and 3 move blocks whose last one overhangs
  its array, so a staging buffer's tail may hold words no array element names; the matrix product of a block reads
  those words into every output column. The contents the body leaves in the output's staging buffer are therefore not
  a function of the arrays, and the proof data used here is RELATIONAL: of what the body leaves in any staging buffer
  nothing is said (the relation that holds of any two contents). The frame claim reads no output, so this suffices:
  an input array is never written and ends at its entry contents; a buffer that bypasses the region and that no later
  host line writes ends at its entry contents; and no host line before the region writes an argument array.

  The body's triple is stated over arbitrary whole staging memrefs at arbitrary contents: three whole-buffer loads, a
  dead load of the output's buffer, one whole-buffer store into it; each buffer comes back at some contents.
-/
import proofs.«417371_j62414464746143_3_alg».proof.Proof.Gen.Kernel.Frame
import proofs.«417371_j62414464746143_3_alg».proof.Proof.Gen.Kernel.Skeleton
import proofs.«417371_j62414464746143_3_alg».proof.Proof.Gen.Kernel.Launch
import proofs.«417371_j62414464746143_3_alg».proof.Proof.Gen.Kernel.Points
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 2000000 in
/-- The kernel body on four whole staging memrefs, each at ANY contents, runs to the continuation holding each at
    SOME contents: the three inputs' buffers are only read, the output's buffer is read (a dead load) and then
    overwritten whole. -/
theorem sound_kernel (c : Dev nD) (E : Set ℕ) (i : grid0.Coords)
    (arg1 : Memref sig .tc .vmem S1024x128 .f32) (harg1 : arg1.IsWhole) (arg2 : Memref sig .tc .vmem S2048x128 .f32) (harg2 : arg2.IsWhole)
    (arg3 : Memref sig .tc .vmem S1x2048 .f32) (harg3 : arg3.IsWhole) (arg4 : Memref sig .tc .vmem S1024x2048 .f32) (harg4 : arg4.IsWhole)
    (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)) -∗ K ⟨⟩))
      ⊢ wp frame (wpE (defs₀ (F := F)) Variants.none c none) E (cc0__out_kernel i arg1 harg1 arg2 harg2 arg3 harg3 arg4 harg4) K := by
  simp only [cc0__out_kernel_eq_skeleton]; unfold cc0__out_kernel_skel
  unfold owns
  iintro ⟨⟨%d0, %f0, -, H0⟩, ⟨%d1, %f1, -, H1⟩, ⟨%d2, %f2, -, H2⟩, ⟨%d3, %f3, -, H3⟩, Hk⟩
  sl_exec
  sl_step
  iapply Hk
  isplitl [H0]
  · iexists _; iexists _; isplitr
    swap; · iexact H0
    ipureintro; rfl
  isplitl [H1]
  · iexists _; iexists _; isplitr
    swap; · iexact H1
    ipureintro; rfl
  isplitl [H2]
  · iexists _; iexists _; isplitr
    swap; · iexact H2
    ipureintro; rfl
  iexists _; iexists _; isplitr
  swap; · iexact H3
  ipureintro; rfl

/-! ## The pipeline's proof data -/

/-- The relational proof data of the one pipeline on core `c`: the arrays as the region finds them; of what the body
    leaves in a staging buffer, nothing (any contents, whatever was found); the invariant the frame's (the scoped buffers no
    window stages and the random-number register, untouched); nothing owed; full shares. -/
def rdats (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-! ## The body obligation, at a generic point -/

/-- The body at any point, from the four current staging buffers at any contents `Y w`: each comes back at some
    contents; the invariant and the core's owed tallies pass through unread. -/
theorem body_obligation (c : Dev nD) : (rdats (F := F) m c).BodyObligation (defs₀ (F := F)) Variants.none () Set.univ := fun t Y _ => by
  rw [bigSep_W0, bigSep_W0]
  show iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdats m c).Φ t.castSucc ∗ (rdats m c).owesAt () t.castSucc
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X)))
  unfold bodyAt0
  iintro ⟨HΦ, Ho, H0, H1, H2, H3⟩
  iapply (sound_kernel c Set.univ (grid0.coords t) _ _ _ _ _ _ _ _ _)
  isplitl [H0]; · iexists _; iexact H0
  isplitl [H1]; · iexists _; iexact H1
  isplitl [H2]; · iexists _; iexact H2
  isplitl [H3]; · iexists _; iexact H3
  iintro ⟨⟨%X0, H0⟩, ⟨%X1, H1⟩, ⟨%X2, H2⟩, ⟨%X3, H3⟩⟩
  isplitl [HΦ]; · iexact HΦ
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  iexists X3; isplitr; · ipureintro; trivial
  iexact H3

/-! ## The run and the frame -/

/-- The one host line after the region writes `main_v41` only. -/
theorem sfx_writes : ∀ ops ∈ ([hostOps1] : List (List (HloOp τ sig (Elt F)))), ∀ op ∈ ops,
    ∀ b : Ref sig .tc, Proc.devRef .tc b ∈ op.writes → b ∈ ({main_v41} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Finset.mem_singleton]
  exact Proc.devRef_injective (τ := τ) _ hb

set_option backward.isDefEq.respectTransparency.types false in
/-- At the compiled mesh, for any values, from any memory with zero counters: every weakly fair execution of @main on
    the TensorCores terminates, and in every final state every array of the pipeline holds some contents it may hold
    after the write-backs (an input its entry contents), and every other unscoped buffer but `main_v41` what it held
    when the region was entered. -/
theorem run_main : θ_run defs (onTc (τ := τ) (main (F := F))) (s₀ m ρ)
    (Pipeline.RDat.FramePostR cfg0 (rdats m) ({main_v41} : Finset (Ref sig .tc)) (fun c b => V0 m c (Proc.devRef .tc b))) :=
  Pipeline.RDat.θ_run_frame_around_T cfgs (0 : Fin 1) launch0 defs₀ Variants.none (rdats m) {main_v41} m ρ main
    (hbody := fun c => body_obligation m c) (hshare := fun c => (rdats m c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl) (hΦ := fun _ _ => rfl)

/-- THE FRAME at any float instance: every argument array ends as launched. An array no window stages and no later host
    line writes bypasses the region and is as the region found it, which is as launched (no earlier host line writes
    it); the staged input array is never written by the pipeline. -/
theorem frame_rel : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have rest : ∀ b : Ref sig .tc, b.isScoped = false → (∀ w, (spec0 w).arr.view.ref ≠ b) → b ≠ main_v41 →
        _ = V0 m c (Proc.devRef .tc b) := fun b hs ha hne =>
      (h c).2 b (Finset.mem_sdiff.mpr ⟨Pipeline.mem_restRefs_of b hs ha, by rw [Finset.mem_singleton]; exact hne⟩)
    ⟨(rest main_arg0 (by decide) (by decide) (by decide)).trans (V_main_arg0 m c),
      (rest main_arg1 (by decide) (by decide) (by decide)).trans (V_main_arg1 m c),
      (rest main_arg2 (by decide) (by decide) (by decide)).trans (V_main_arg2 m c),
      (rest main_arg3 (by decide) (by decide) (by decide)).trans (V_main_arg3 m c),
      (rest main_arg4 (by decide) (by decide) (by decide)).trans (V_main_arg4 m c),
      (rest main_arg5 (by decide) (by decide) (by decide)).trans (V_main_arg5 m c),
      (Pipeline.RDat.FramePostR.arr_in h c 1 rfl).trans (V_main_arg6 m c),
      (rest main_arg7 (by decide) (by decide) (by decide)).trans (V_main_arg7 m c)⟩) (run_main m ρ)

end Cert.Kernel.Gen

end
-- ==== Proof.BodyTriple.lean ====
import proofs.«417371_j62414464746143_3_alg».proof.Proof.Gen.KernelIdeal.Frame
import proofs.«417371_j62414464746143_3_alg».proof.Proof.Gen.KernelIdeal.Skeleton
import Idealize.ShloMosaic.Lib.Pipeline.Frame
import Idealize.ShloMosaic.Lib.Pipeline.Value
import Idealize.ShloMosaic.Lib.Exec.Geometry

/-!
The body of the idealized kernel program's one region, on whole staging buffers: it loads the state block
`[1024, 128]`, the weight block `[2048, 128]` and the bias row `[1, 2048]`, and stores
`max(state · weightᵀ + bias, 0)` over the whole `[1024, 2048]` output buffer. Stated for any float instance.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole state buffer, -/
abbrev rH : Rect S1024x128 := Rect.unit (s := S1024x128) ![0, 0] S1024x128.size inb_S1024x128_S1024x128_0_0
/-- the whole weight buffer, -/
abbrev rW : Rect S2048x128 := Rect.unit (s := S2048x128) ![0, 0] S2048x128.size inb_S2048x128_S2048x128_0_0
/-- the whole bias buffer, -/
abbrev rB : Rect S1x2048 := Rect.unit (s := S1x2048) ![0, 0] S1x2048.size inb_S1x2048_S1x2048_0_0
/-- the whole output buffer. -/
abbrev rO : Rect S1024x2048 := Rect.unit (s := S1024x2048) ![0, 0] S1024x2048.size inb_S1024x2048_S1024x2048_0_0

/-- What the output buffer holds after the body: its one store, of the payload over the three loads. -/
def out0_3 (x0 : Vec F S1024x128 .f32) (x1 : Vec F S2048x128 .f32) (x2 : Vec F S1x2048 .f32) : Vec F S1024x2048 .f32 :=
  View.canon [⟨rO, k0_pay1 (View.ld x0 rH) (View.ld x1 rW) (View.ld x2 rB)⟩]

/-- The one store covers the buffer. -/
theorem cover0_3 (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

/-- Every access is the whole buffer at offset zero: the output buffer ends at the payload of the three buffers. -/
theorem out0_3_eq (x0 : Vec F S1024x128 .f32) (x1 : Vec F S2048x128 .f32) (x2 : Vec F S1x2048 .f32) :
    out0_3 x0 x1 x2 = k0_pay1 x0 x1 x2 := by
  have hz : (![0, 0] : Fin 2 → Nat) = fun _ => 0 := funext fun a => by fin_cases a <;> rfl
  unfold out0_3
  rw [View.canon_unit_zero hz]
  simp only [View.ld_unit_zero (S := S1024x128) hz, View.ld_unit_zero (S := S2048x128) hz, View.ld_unit_zero (S := S1x2048) hz]

set_option maxHeartbeats 1000000 in
/-- The body's triple: from the three input buffers at `x0`, `x1`, `x2` and the output buffer at anything, to the
    inputs as they were and the output at `out0_3 x0 x1 x2`. -/
theorem sound_kernel (c : Dev nD) (E : Set ℕ) (i : grid0.Coords)
    (arg1 : Memref sig .tc .vmem S1024x128 .f32) (harg1 : arg1.IsWhole) (arg2 : Memref sig .tc .vmem S2048x128 .f32) (harg2 : arg2.IsWhole)
    (arg3 : Memref sig .tc .vmem S1x2048 .f32) (harg3 : arg3.IsWhole) (arg4 : Memref sig .tc .vmem S1024x2048 .f32) (harg4 : arg4.IsWhole)
    (x0 : Vec F S1024x128 .f32) (x1 : Vec F S2048x128 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__out_kernel i arg1 harg1 arg2 harg2 arg3 harg3 arg4 harg4) K := by
  simp only [cc0__out_kernel_eq_skeleton]; unfold cc0__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Gen

end
-- ==== Proof.PointValue.lean ====
/-
  Two values read at one entry, at the ideal instance, where a float is an extended real.

  The kernel body's payload: the [1024,128] state times the transposed [2048,128] block of the
  table (both operands contracted along their second axis, 128 long, into a zero accumulator),
  plus the block's [1,2048] bias row repeated down the 1024 rows, clamped below at zero. At the
  entry (p, q) that is  max (∑ k, h[p,k] * w[q,k] + b[0,q]) 0.

  The reference's first result: the [1024,128] state (left as the reference's own stage) times the
  transposed [100000,128] table, plus the bias vector repeated down the rows, clamped below at
  zero. At the entry (p, j) that is  max (∑ k, state[p,k] * table[j,k] + bias[j]) 0.
-/
import proofs.«417371_j62414464746143_3_alg».proof.Proof.Gen.KernelIdeal.Skeleton
import proofs.«417371_j62414464746143_3_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PointValue

open Idealize.ShloMosaic Idealize.ShloMosaic.ValueIdx

/-! ## The kernel's contraction: which operand entries meet at an output entry -/

section Kernel
open Cert.KernelIdeal Cert.KernelIdeal.Gen

/-- The left operand's row is the output's row. -/
theorem lhs_mm_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
/-- The left operand's column is the contraction position. -/
theorem lhs_mm_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- The right operand's row is the output's column. -/
theorem rhs_mm_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
/-- The right operand's column is the contraction position. -/
theorem rhs_mm_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The product into a zero accumulator at the entry (p, q): row p of the left operand against row q of
    the right one. -/
theorem mm_apply (x : FVec Ideal S1024x128 .bf16) (y : FVec Ideal S2048x128 .bf16) (p : Fin 1024) (q : Fin 2048) :
    matmul (F := Ideal) dot_S1024x128_S2048x128_S1024x2048_1_1_0_0_n_n none x y (constant (F := Ideal) S1024x2048 .f32 0x00000000#32) (ix2 p q)
      = ∑ k : Fin 128, x (ix2 p k) * y (ix2 q k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs_mm_0 _ _
    | ⟨1, _⟩ => exact (lhs_mm_1 _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs_mm_0 _ _
    | ⟨1, _⟩ => exact (rhs_mm_1 _ _).trans hk)
  rw [el, er]

/-- The payload's operations over operands already at their shapes, at the entry (p, q). -/
theorem pay_core (h : FVec Ideal S1024x128 .f32) (w : FVec Ideal S2048x128 .f32) (b : FVec Ideal S1x2048 .f32) (p : Fin 1024) (q : Fin 2048) :
    maximumf (addf (matmul (F := Ideal) dot_S1024x128_S2048x128_S1024x2048_1_1_0_0_n_n none (truncf .bf16 h bitsLt_bf16_f32) (truncf .bf16 w bitsLt_bf16_f32) (constant (F := Ideal) S1024x2048 .f32 0x00000000#32))
        (broadcastTo S1024x2048 b broadcasts_S1x2048_S1024x2048)) (broadcast S1024x2048 (Scalar.ofBits (F := Ideal) .f32 0x00000000#32)) (ix2 p q)
      = max ((∑ k : Fin 128, h (ix2 p k) * w (ix2 q k)) + b (ix2 (0 : Fin 1) q)) (0 : EReal) := by
  rw [maximumf_apply, addf_apply, mm_apply, broadcastTo_1b_ab_apply, broadcast_apply]
  show max _ (Ideal.ofBits .f32 0x00000000#32) = _
  rw [Ideal.ofBits_zero_f32]
  rfl

end Kernel

/-- The kernel body's payload at the entry (p, q) of its block. -/
theorem pay_apply [Cert.KernelIdeal.Facts] (h : Vec Ideal Cert.KernelIdeal.S1024x128 .f32) (w : Vec Ideal Cert.KernelIdeal.S2048x128 .f32) (b : Vec Ideal Cert.KernelIdeal.S1x2048 .f32) (p : Fin 1024) (q : Fin 2048) :
    Cert.KernelIdeal.Gen.k0_pay1 (F := Ideal) h w b (ix2 p q)
      = max ((∑ k : Fin 128, h (ix2 p k) * w (ix2 q k)) + b (ix2 (0 : Fin 1) q)) (0 : EReal) := by
  unfold Cert.KernelIdeal.Gen.k0_pay1
  refine Eq.trans ?_ (pay_core h w b p q)
  rw [shapeCast_self, shapeCast_self]

/-! ## The reference's first result -/

section Reference
open Cert.ReferenceIdeal Cert.ReferenceIdeal.Gen Cert.ReferenceIdeal.Read

/-- The reference's first result at the entry (p, j), over its own stage for the state. -/
theorem ref_apply [Cert.ReferenceIdeal.Facts] (x0 : (⟨S1024, .i32⟩ : BufTy).Contents (Elt Ideal)) (x1 : (⟨S1x1024x128, .f32⟩ : BufTy).Contents (Elt Ideal)) (x2 : (⟨S384x100000, .f32⟩ : BufTy).Contents (Elt Ideal)) (x3 : (⟨S384, .f32⟩ : BufTy).Contents (Elt Ideal)) (x4 : (⟨S384x128, .f32⟩ : BufTy).Contents (Elt Ideal)) (x5 : (⟨S384, .f32⟩ : BufTy).Contents (Elt Ideal)) (x6 : (⟨S100000x128, .f32⟩ : BufTy).Contents (Elt Ideal)) (x7 : (⟨S100000, .f32⟩ : BufTy).Contents (Elt Ideal)) (p : Fin 1024) (j : Fin 100000) :
    val_main_v50 (F := Ideal) x0 x1 x2 x3 x4 x5 x6 x7 (ix2 p j)
      = max ((∑ k : Fin 128, val_main_v44 (F := Ideal) x0 x1 x2 x3 x4 x5 (ix2 p k) * x6 (ix2 j k)) + x7 (ix1 j)) (0 : EReal) := by
  rw [val_main_v50_apply, val_main_v49_apply, val_main_v46_apply, val_main_v48_apply, val_main_v47_apply,
    val_main_call0_v0_apply, val_main_call0_cst_apply]
  generalize val_main_v44 (F := Ideal) x0 x1 x2 x3 x4 x5 = y
  have hl : ∀ k : Fin 128, lidx_main_v46 (ix2 p j) k = ix2 p k := fun k => funext fun a => Fin.ext (by
    match a with
    | ⟨0, _⟩ => rfl
    | ⟨1, _⟩ => rfl)
  have hr : ∀ k : Fin 128, idx_main_v45 (ridx_main_v46 (ix2 p j) k) = ix2 j k := fun k => funext fun a => Fin.ext (by
    match a with
    | ⟨0, _⟩ => rfl
    | ⟨1, _⟩ => rfl)
  have hb : idx_main_v47 (idx_main_v48 (ix2 p j)) = ix1 j := funext fun a => Fin.ext (by
    match a with
    | ⟨0, _⟩ => rfl)
  simp only [val_main_v45_apply, hl, hr, hb]
  show max _ (Ideal.ofBits .f32 0x00000000#32) = _
  rw [Ideal.ofBits_zero_f32]
  rfl

end Reference

end Cert.PointValue

end
-- ==== Proof.IdealData.lean ====
import proofs.«417371_j62414464746143_3_alg».proof.Proof.BodyTriple
import proofs.«417371_j62414464746143_3_alg».proof.Proof.PointValue
import Idealize.ShloMosaic.Lib.Pipeline.FrameSuffix
import Idealize.ShloMosaic.Lib.Pipeline.Kit

/-!
The proof data of the idealized kernel program's one region, at the ideal instance, and its run.

The grid has 49 points; point `t` works on columns `2048·t ‥ 2048·t + 2047` of the `[1024, 100000]` result. The last
block overhangs the arrays' end (columns `98304 ‥ 99999` exist, 1696 of 2048): a fetch fills only the leading part of
a staging buffer, the rest holds words nothing names, and a write-back moves only the leading part. At the ideal
instance entry `(p, q)` of the product depends on row `p` of the state and row `q` of the weight block alone, so the
columns written back do not see the unnamed rows.
-/

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The weight block of point `t` filled out with zeros past the array's end, -/
def wblk (c : Dev nD) (t : Fin cfg0.N) : Vec Ideal S2048x128 .f32 :=
  win0_1.fill (grid0.coords t) (fun _ => (0 : EReal)) (iblk m c 1 t)
/-- the bias block likewise, -/
def bblk (c : Dev nD) (t : Fin cfg0.N) : Vec Ideal S1x2048 .f32 :=
  win0_2.fill (grid0.coords t) (fun _ => (0 : EReal)) (iblk m c 2 t)
/-- and the result block computed from them. -/
def oblk (c : Dev nD) (t : Fin cfg0.N) : Vec Ideal S1024x2048 .f32 :=
  k0_pay1 (F := Ideal) (iblk m c 0 t) (wblk m c t) (bblk m c t)

/-- The proof data of the one pipeline on core `c`: the arrays as the region finds them; after the body the state's
    buffer at its block, the weight's and the bias's at their blocks (stated on the part inside the array), the
    result's at the block computed from them (likewise); the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t
    | ⟨2, _⟩ => bblk m c t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = bblk m c t := by dsimp only [dats]
theorem after0_3 (c : Dev nD) (t : Fin cfg0.N) : (dats m 0 c).after 3 t = oblk m c t := by dsimp only [dats]

/-- The state's buffer holds its block at every point. -/
theorem before0_0 (c : Dev nD) (t : Fin cfg0.N) (d) : (dats m 0 c).before 0 t d = iblk m c 0 t :=
  before0_0_of m (dats m 0 c) (A_eq m c 0) (after0_0 m c) t d
/-- The weight's buffer, fetched at every point, holds its block on the part the fetch fills and `d` elsewhere. -/
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]
/-- The bias's likewise. -/
theorem before0_2 (c : Dev nD) (t : Fin cfg0.N) (d) :
    (dats m 0 c).before 2 t d = win0_2.fill (grid0.coords t) d (iblk m c 2 t) := by
  rw [Dat.before_fetched _ 2 t (fetch0_2 t)]
  unfold Dat.fetched Dat.blockOf iblk
  rw [A_eq]
/-- The result's buffer, written back at every point, is found at anything. -/
theorem before0_3 (c : Dev nD) (t : Fin cfg0.N) (d) : (dats m 0 c).before 3 t d = d := by
  refine Dat.before_out_reset _ 3 rfl t ?_ d
  by_cases h0 : t.val = 0
  · exact .inl h0
  · exact .inr ⟨h0, flush0_3 _⟩

/-! ## Only the rows inside the array reach the columns written back -/

/-- What the transfers of point `t` move: the weight block's rows and the bias block's and the result block's
    columns are cut alike; no other axis is cut. -/
theorem xsizes (t : Fin cfg0.N) :
    win0_1.xsize (grid0.coords t) 0 = win0_3.xsize (grid0.coords t) 1 ∧ win0_1.xsize (grid0.coords t) 1 = 128
    ∧ win0_2.xsize (grid0.coords t) 0 = 1 ∧ win0_2.xsize (grid0.coords t) 1 = win0_3.xsize (grid0.coords t) 1
    ∧ win0_3.xsize (grid0.coords t) 0 = 1024 :=
  (by decide +kernel : ∀ t : Fin grid0.N,
    win0_1.xsize (grid0.coords t) 0 = win0_3.xsize (grid0.coords t) 1 ∧ win0_1.xsize (grid0.coords t) 1 = 128
    ∧ win0_2.xsize (grid0.coords t) 0 = 1 ∧ win0_2.xsize (grid0.coords t) 1 = win0_3.xsize (grid0.coords t) 1
    ∧ win0_3.xsize (grid0.coords t) 0 = 1024) t

/-- The part of the result block that is written back does not depend on what fills the weight's and the bias's
    buffers past the arrays' end: entry `(p, q)` is `max(Σₖ state[p,k] · weight[q,k] + bias[q], 0)`, and for a column
    `q` that is written back row `q` of the weight block and entry `q` of the bias block were fetched. -/
theorem cut_pay (t : Fin cfg0.N) (h : Vec Ideal S1024x128 .f32)
    (d1 d1' : S2048x128.Idx → Elt Ideal .f32) (g1 : (win0_1.xblock (grid0.coords t)).Idx → Elt Ideal .f32)
    (d2 d2' : S1x2048.Idx → Elt Ideal .f32) (g2 : (win0_2.xblock (grid0.coords t)).Idx → Elt Ideal .f32) :
    win0_3.cut (grid0.coords t) (k0_pay1 (F := Ideal) h (win0_1.fill (grid0.coords t) d1 g1) (win0_2.fill (grid0.coords t) d2 g2))
      = win0_3.cut (grid0.coords t) (k0_pay1 (F := Ideal) h (win0_1.fill (grid0.coords t) d1' g1) (win0_2.fill (grid0.coords t) d2' g2)) := by
  funext y
  obtain ⟨e10, e11, e20, e21, e30⟩ := xsizes t
  have hy0 : (y 0).val < win0_3.xsize (grid0.coords t) 0 := (y 0).isLt
  have hy1 : (y 1).val < win0_3.xsize (grid0.coords t) 1 := (y 1).isLt
  have hs1 : win0_3.xsize (grid0.coords t) 1 ≤ 2048 := win0_3.xsize_le _ 1
  let p : Fin 1024 := ⟨(y 0).val, by omega⟩
  let q : Fin 2048 := ⟨(y 1).val, by omega⟩
  have hx : win0_3.xinj (grid0.coords t) y = ix2 p q := by
    funext a; match a with | ⟨0, _⟩ => rfl | ⟨1, _⟩ => rfl
  show k0_pay1 (F := Ideal) h _ _ (win0_3.xinj (grid0.coords t) y) = k0_pay1 (F := Ideal) h _ _ (win0_3.xinj (grid0.coords t) y)
  rw [hx, Cert.PointValue.pay_apply, Cert.PointValue.pay_apply]
  have hw : ∀ k : Fin 128, win0_1.fill (grid0.coords t) d1 g1 (ix2 q k) = win0_1.fill (grid0.coords t) d1' g1 (ix2 q k) := fun k => by
    have hm : win0_1.moved (grid0.coords t) (ix2 q k) = true := (win0_1.moved_iff _ _).mpr fun a => by
      match a with
      | ⟨0, _⟩ => show q.val < win0_1.xsize (grid0.coords t) 0; rw [e10]; exact hy1
      | ⟨1, _⟩ => show k.val < win0_1.xsize (grid0.coords t) 1; rw [e11]; exact k.isLt
    unfold Window.fill; rw [dif_pos hm, dif_pos hm]
  have hb : win0_2.fill (grid0.coords t) d2 g2 (ix2 (0 : Fin 1) q) = win0_2.fill (grid0.coords t) d2' g2 (ix2 (0 : Fin 1) q) := by
    have hm : win0_2.moved (grid0.coords t) (ix2 (0 : Fin 1) q) = true := (win0_2.moved_iff _ _).mpr fun a => by
      match a with
      | ⟨0, _⟩ => show (0 : Nat) < win0_2.xsize (grid0.coords t) 0; rw [e20]; exact Nat.one_pos
      | ⟨1, _⟩ => show q.val < win0_2.xsize (grid0.coords t) 1; rw [e21]; exact hy1
    unfold Window.fill; rw [dif_pos hm, dif_pos hm]
  rw [hb]
  simp only [hw]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the state's buffer at its block; the other three stated on the part the transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

/-- The body at any point: the state's buffer arrives holding its block, the weight's and the bias's holding their
    blocks filled out by words nothing names, the result's holding anything; the body leaves the first three as
    they were and the result's at the payload of the three, whose part written back is that of `oblk` (`cut_pay`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win0_1.cut (grid0.coords t) (wblk m c t) = iblk m c 1 t from win0_1.cut_fill _ _ _]
    iexact H1
  isplitl [H2]
  · iexists d2
    rw [show win0_2.cut (grid0.coords t) (bblk m c t) = iblk m c 2 t from win0_2.cut_fill _ _ _]
    iexact H2
  · iexists (out0_3 (iblk m c 0 t) (win0_1.fill (grid0.coords t) d1 (iblk m c 1 t)) (win0_2.fill (grid0.coords t) d2 (iblk m c 2 t)))
    rw [win0_3.fill_congr_cut (grid0.coords t) (by rw [out0_3_eq]; exact cut_pay t _ _ _ _ _ _ _)]
    iexact H3

/-- The library's body obligation, at every point (every window but the state's is stated on its moved part). -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- At the compiled mesh, from any memory with zero counters: every weakly fair execution of @main terminates, every
    array of the pipeline ends at what the library computes from the proof data, and every other unscoped buffer at
    what the host lines after the region leave there. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)

end Cert.KernelIdeal.Gen

end
-- ==== Proof.HostSpec.lean ====
import proofs.«417371_j62414464746143_3_alg».proof.Proof.Gen.KernelIdeal

/-!
The host lines of the kernel program before its one region, read back as functions of the argument arrays.

The recurrent cell: with `gi` the gathered input projection plus its bias and `gh` the hidden projection plus its
bias (both `[1024, 384]`, the three gates side by side), and `h0` the previous state,
`r = σ(gi_r + gh_r)`, `z = σ(gi_z + gh_z)`, `n = tanh(gi_n + r · gh_n)`, `h = (1 - z) · n + z · h0`,
with `σ(x) = 1 / (1 + exp(-x))`. The kernel program and the reference compute `gh`, `h0` and the cell by the same
operations; they differ in how `gi` gathers the columns of the input weights (`giK` below).
-/

set_option maxRecDepth 16384

noncomputable section

namespace Cert.KernelIdeal.Gen

open Idealize.ShloMosaic Idealize.SL.Sem

variable {F : FTy → Type} [FloatOps F]

/-- The start indices of the gather: each index word, a negative one moved up by the vocabulary's size, as a
    column `[1024, 1]`. -/
def idxK (x0 : IVec S1024 32) : IVec S1024x1 32 :=
  broadcastInDim S1024x1 ![0] bcast_S1024_S1024x1_0
    (select (cmpi .slt x0 (broadcastInDim S1024 ![] bcast_S_S1024 (constantI S_ 32 0#32)))
      (addi x0 (broadcastInDim S1024 ![] bcast_S_S1024 (constantI S_ 32 100000#32))) x0)

/-- Which start indices lie in `[0, 99999]`, one bit per index. -/
def maskK (x0 : IVec S1024 32) : IVec S1024 1 :=
  Host.reduce IntOp.andi
    (andi (cmpi .sge (idxK x0) (broadcastInDim S1024x1 ![] bcast_S_S1024x1 (constantI S_ 32 0#32)))
      (cmpi .sle (idxK x0) (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The kernel program's input projection: the columns of the `[384, 100000]` weights named by the start indices
    (a column whose index is out of range replaced by the fill word), transposed to `[1024, 384]`, plus the bias. -/
def giK (x0 : IVec S1024 32) (x2 : FVec F S384x100000 .f32) (x3 : FVec F S384 .f32) : FVec F S1024x384 .f32 :=
  addf
    (transpose S1024x384 [1, 0]
      (select (broadcastInDim S384x1024 ![1] bcast_S1024_S384x1024_1 (maskK x0))
        (Host.gather gather_S384x100000_S1024x1_S384x1024_0_1_n_n_1_1_3841 x2 (idxK x0))
        (broadcastInDim S384x1024 ![] bcast_S_S384x1024 (constant S_ .f32 0x7FC00000#32)))
      transposes_S384x1024_S1024x384_1_0)
    (broadcastInDim S1024x384 ![0, 1] bcast_S1x384_S1024x384_0_1 (broadcastInDim S1x384 ![1] bcast_S384_S1x384_1 x3))

/-- The logistic gate `1 / (1 + exp(-x))` of a `[1024, 128]` array. -/
def gateK (x : FVec F S1024x128 .f32) : FVec F S1024x128 .f32 :=
  Host.divf (broadcastInDim S1024x128 ![] bcast_S_S1024x128 (constant S_ .f32 0x3F800000#32))
    (addf (broadcastInDim S1024x128 ![] bcast_S_S1024x128 (constant S_ .f32 0x3F800000#32)) (Host.exp (Host.negf x)))

/-- The recurrent cell's new state from the two projections and the previous state. -/
def cellK (gi gh : FVec F S1024x384 .f32) (h0 : FVec F S1024x128 .f32) : FVec F S1024x128 .f32 :=
  addf
    (mulf
      (subf (broadcastInDim S1024x128 ![] bcast_S_S1024x128 (constant S_ .f32 0x3F800000#32))
        (gateK (addf (extractStridedSlice S1024x128 ![0, 128] gi slices_S1024x384_S1024x128_0_128)
          (extractStridedSlice S1024x128 ![0, 128] gh slices_S1024x384_S1024x128_0_128))))
      (Host.tanh (addf (extractStridedSlice S1024x128 ![0, 256] gi slices_S1024x384_S1024x128_0_256)
        (mulf (gateK (addf (extractStridedSlice S1024x128 ![0, 0] gi slices_S1024x384_S1024x128_0_0)
            (extractStridedSlice S1024x128 ![0, 0] gh slices_S1024x384_S1024x128_0_0)))
          (extractStridedSlice S1024x128 ![0, 256] gh slices_S1024x384_S1024x128_0_256)))))
    (mulf
      (gateK (addf (extractStridedSlice S1024x128 ![0, 128] gi slices_S1024x384_S1024x128_0_128)
        (extractStridedSlice S1024x128 ![0, 128] gh slices_S1024x384_S1024x128_0_128)))
      h0)

/-- The previous state: the `[1, 1024, 128]` argument as `[1024, 128]`. -/
def h0K (x1 : FVec F S1x1024x128 .f32) : FVec F S1024x128 .f32 := shapeCast S1024x128 x1 shapeCasts_S1x1024x128_S1024x128

/-- The hidden projection `h0 · W_hhᵀ + b_hh`. -/
def ghK (x1 : FVec F S1x1024x128 .f32) (x4 : FVec F S384x128 .f32) (x5 : FVec F S384 .f32) : FVec F S1024x384 .f32 :=
  addf
    (Host.dotGeneral dot_S1024x128_S128x384_S1024x384_1_0_0_1_n_n none (h0K x1)
      (transpose S128x384 [1, 0] x4 transposes_S384x128_S128x384_1_0))
    (broadcastInDim S1024x384 ![0, 1] bcast_S1x384_S1024x384_0_1 (broadcastInDim S1x384 ![1] bcast_S384_S1x384_1 x5))

/-- The new state as the kernel program computes it. -/
def hK (x0 : IVec S1024 32) (x1 : FVec F S1x1024x128 .f32) (x2 : FVec F S384x100000 .f32) (x3 : FVec F S384 .f32)
    (x4 : FVec F S384x128 .f32) (x5 : FVec F S384 .f32) : FVec F S1024x128 .f32 :=
  cellK (giK x0 x2 x3) (ghK x1 x4 x5) (h0K x1)

end Cert.KernelIdeal.Gen

end
-- ==== Proof.HostValue.lean ====
import proofs.«417371_j62414464746143_3_alg».proof.Proof.HostSpec
import proofs.«417371_j62414464746143_3_alg».proof.Proof.Gen.KernelIdeal.Frame
import Idealize.ShloMosaic.Lib.StableHlo.Run

/-!
The arrays the kernel program's one region finds: its first window's array is the recurrent cell's new state
(`hK` of the arguments) and its third window's the output bias as a row.
-/

set_option maxRecDepth 16384

noncomputable section

namespace Cert.KernelIdeal.Gen

open Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 8000000 in
/-- Window 0's array when the region is entered is the new state. -/
theorem V_main_v38 (c : Dev nD) : (V m c main_v38 : S1024x128.Idx → Elt F .f32)
    = hK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  dsimp only [V, V0]
  simp only [hostOps0, hostOps0_1, List.flatten_cons, List.flatten_nil, List.append_nil, List.cons_append, List.nil_append]
  after_results_simp
  unfold hK cellK gateK giK ghK h0K maskK idxK
  rfl

set_option maxHeartbeats 8000000 in
/-- Window 2's array when the region is entered is the output bias as a row `[1, 100000]`. -/
theorem V_main_v39 (c : Dev nD) : (V m c main_v39 : S1x100000.Idx → Elt F .f32)
    = shapeCast S1x100000 (m ((c : Thread nD τ).loc main_arg7)) shapeCasts_S100000_S1x100000 := by
  dsimp only [V, V0]
  simp only [hostOps0, hostOps0_1, List.flatten_cons, List.flatten_nil, List.append_nil, List.cons_append, List.nil_append]
  after_results_simp
  rfl

end Cert.KernelIdeal.Gen

end
-- ==== Proof.LogitSpec.lean ====
/-
  The clamped affine read-out of a [1024,128] state against a [100000,128] table and a bias vector, as a
  function of the whole arrays: at the entry (p, j) it is  max (∑ k, H[p,k] * W[j,k] + b[j]) 0.
-/
import proofs.«417371_j62414464746143_3_alg».proof.KernelIdeal
import Idealize.ShloMosaic.Lib.ValueIdx
import Idealize.ShloMosaic.PureOps.Ideal

noncomputable section

open scoped BigOperators

namespace Cert.KernelIdeal.Gen

open Idealize.ShloMosaic Idealize.ShloMosaic.ValueIdx

/-- Row `i 0` of the state against row `i 1` of the table, plus the bias at `i 1`, clamped below at zero. -/
def logitK (H : FVec Ideal Cert.KernelIdeal.S1024x128 .f32) (W : FVec Ideal Cert.KernelIdeal.S100000x128 .f32) (b : FVec Ideal Cert.KernelIdeal.S100000 .f32) : Cert.KernelIdeal.S1024x100000.Idx → EReal :=
  fun i => max ((∑ k : Fin 128, H (ix2 (i 0) k) * W (ix2 (i 1) k)) + b (ix1 (i 1))) (0 : EReal)

end Cert.KernelIdeal.Gen

end
-- ==== Proof.IdealValue.lean ====
import proofs.«417371_j62414464746143_3_alg».proof.Proof.IdealData
import proofs.«417371_j62414464746143_3_alg».proof.Proof.HostValue
import proofs.«417371_j62414464746143_3_alg».proof.Proof.LogitSpec
import proofs.«417371_j62414464746143_3_alg».proof.Proof.PointValue
import Idealize.ShloMosaic.Lib.Pipeline.Value
import Idealize.ShloMosaic.Lib.ValueIdx
import Idealize.ShloMosaic.Lib.ValueLayout

/-!
The result array of the kernel program's one region after its run, at the ideal instance, in closed form.

Point `t` of the 49 writes back columns `2048·t ‥ 2048·t + 2047` of the `[1024, 100000]` result (the last point only
the 1696 columns inside the array). The entry `(p, q)` of its block is `max (∑ k, h[p,k] · w[q,k] + b[0,q]) 0` with `h` the
state's block — the whole `[1024, 128]` state at every point —, `w` the weight block — rows `2048·t + q` of the
`[100000, 128]` table — and `b` the bias block — entries `2048·t + q` of the bias row —, and for a column that is
written back those rows and entries lie inside the arrays. The written parts cover the result array, so at every
entry `(p, j)` it ends at `max (∑ k, H[p,k] · W[j,k] + b[j]) 0`, `H` the state the region found.
-/

set_option maxRecDepth 16384

noncomputable section

open scoped BigOperators

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The index maps, decided once over the grid -/

/-- The result's block at point `t` is block `(0, t)`: all 1024 rows, and of its 2048 columns those inside the array. -/
theorem win3_idx (t : Fin cfg0.N) :
    win0_3.index t 0 = 0 ∧ win0_3.index t 1 = t.val ∧ win0_3.xsize (grid0.coords t) 0 = 1024
    ∧ win0_3.xsize (grid0.coords t) 1 = min 2048 (100000 - t.val * 2048) :=
  (by decide +kernel : ∀ t : Fin grid0.N,
    win0_3.index t 0 = 0 ∧ win0_3.index t 1 = t.val ∧ win0_3.xsize (grid0.coords t) 0 = 1024
    ∧ win0_3.xsize (grid0.coords t) 1 = min 2048 (100000 - t.val * 2048)) t
/-- The state's block is the whole array at every point. -/
theorem win0_idx (t : Fin cfg0.N) : win0_0.index t 0 = 0 ∧ win0_0.index t 1 = 0 :=
  (by decide +kernel : ∀ t : Fin grid0.N, win0_0.index t 0 = 0 ∧ win0_0.index t 1 = 0) t
/-- The weight's block at point `t` is block `(t, 0)`. -/
theorem win1_idx (t : Fin cfg0.N) : win0_1.index t 0 = t.val ∧ win0_1.index t 1 = 0 :=
  (by decide +kernel : ∀ t : Fin grid0.N, win0_1.index t 0 = t.val ∧ win0_1.index t 1 = 0) t
/-- The bias row's block at point `t` is block `(0, t)`. -/
theorem win2_idx (t : Fin cfg0.N) : win0_2.index t 0 = 0 ∧ win0_2.index t 1 = t.val :=
  (by decide +kernel : ∀ t : Fin grid0.N, win0_2.index t 0 = 0 ∧ win0_2.index t 1 = t.val) t

/-- The grid has 49 points. -/
theorem gridN : cfg0.N = 49 := by decide

/-! ## The three input blocks at an entry -/

/-- The state's block is the state: entry `(p, k)` of the block is entry `(p, k)` of the array. -/
theorem iblk0_apply (c : Dev nD) (t : Fin cfg0.N) (p : Fin 1024) (k : Fin 128) :
    iblk m c 0 t (ix2 p k) = V m c main_v38 (ix2 p k) := by
  obtain ⟨e0, e1⟩ := win0_idx t
  show V m c main_v38 (((cfg0.win 0).blk t).view.emb (ix2 p k)) = V m c main_v38 (ix2 p k)
  refine congrArg (V m c main_v38) (funext fun a => Fin.ext ?_)
  match a with
  | ⟨0, _⟩ => show win0_0.index t 0 * 1024 + 1 * p.val = p.val; rw [e0]; omega
  | ⟨1, _⟩ => show win0_0.index t 1 * 128 + 1 * k.val = k.val; rw [e1]; omega

/-- Row `q` of the weight block at point `t`, for a column `q` that is written back, is row `2048·t + q` of the table. -/
theorem wblk_apply (c : Dev nD) (t : Fin cfg0.N) (q : Fin 2048) (k : Fin 128) (j : Fin 100000)
    (hq : q.val < win0_3.xsize (grid0.coords t) 1) (hj : j.val = t.val * 2048 + q.val) :
    wblk m c t (ix2 q k) = m ((c : Thread nD τ).loc main_arg6) (ix2 j k) := by
  obtain ⟨e10, e11, e20, e21, e30⟩ := xsizes t
  obtain ⟨i0, i1⟩ := win1_idx t
  have hm : win0_1.moved (grid0.coords t) (ix2 q k) = true := (win0_1.moved_iff _ _).mpr fun a => by
    match a with
    | ⟨0, _⟩ => show q.val < win0_1.xsize (grid0.coords t) 0; rw [e10]; exact hq
    | ⟨1, _⟩ => show k.val < win0_1.xsize (grid0.coords t) 1; rw [e11]; exact k.isLt
  unfold wblk Window.fill
  rw [dif_pos hm]
  refine Eq.trans ?_ (congrFun (V_main_arg6 m c) (ix2 j k))
  show V m c main_arg6 (((cfg0.win 1).blk t).view.emb _) = V m c main_arg6 (ix2 j k)
  refine congrArg (V m c main_arg6) (funext fun a => Fin.ext ?_)
  match a with
  | ⟨0, _⟩ => show win0_1.index t 0 * 2048 + 1 * q.val = j.val; rw [i0, hj]; omega
  | ⟨1, _⟩ => show win0_1.index t 1 * 128 + 1 * k.val = k.val; rw [i1]; omega

/-- Entry `q` of the bias block at point `t`, for a column `q` that is written back, is entry `2048·t + q` of the bias. -/
theorem bblk_apply (c : Dev nD) (t : Fin cfg0.N) (q : Fin 2048) (j : Fin 100000)
    (hq : q.val < win0_3.xsize (grid0.coords t) 1) (hj : j.val = t.val * 2048 + q.val) :
    bblk m c t (ix2 (0 : Fin 1) q) = m ((c : Thread nD τ).loc main_arg7) (ix1 j) := by
  obtain ⟨e10, e11, e20, e21, e30⟩ := xsizes t
  obtain ⟨i0, i1⟩ := win2_idx t
  have hm : win0_2.moved (grid0.coords t) (ix2 (0 : Fin 1) q) = true := (win0_2.moved_iff _ _).mpr fun a => by
    match a with
    | ⟨0, _⟩ => show (0 : Nat) < win0_2.xsize (grid0.coords t) 0; rw [e20]; exact Nat.one_pos
    | ⟨1, _⟩ => show q.val < win0_2.xsize (grid0.coords t) 1; rw [e21]; exact hq
  unfold bblk Window.fill
  rw [dif_pos hm]
  refine Eq.trans ?_ (shapeCast_a_1a_apply (m ((c : Thread nD τ).loc main_arg7)) shapeCasts_S100000_S1x100000 (0 : Fin 1) j)
  refine Eq.trans ?_ (congrFun (V_main_v39 m c) (ix2 (0 : Fin 1) j))
  show V m c main_v39 (((cfg0.win 2).blk t).view.emb _) = V m c main_v39 (ix2 (0 : Fin 1) j)
  refine congrArg (V m c main_v39) (funext fun a => Fin.ext ?_)
  match a with
  | ⟨0, _⟩ => show win0_2.index t 0 * 1 + 1 * 0 = 0; rw [i0]
  | ⟨1, _⟩ => show win0_2.index t 1 * 2048 + 1 * q.val = j.val; rw [i1, hj]; omega

/-! ## What a write-back writes, and where -/

/-- The entry `y` of the part of point `t`'s result block that is written back is the read-out at the array index
    it is written to: row `y 0`, column `2048·t + y 1`. -/
theorem flushed_entry (c : Dev nD) (t : Fin cfg0.N) (y : (win0_3.xblock (grid0.coords t)).Idx) :
    oblk m c t (win0_3.xinj (grid0.coords t) y)
      = logitK (V m c main_v38) (m ((c : Thread nD τ).loc main_arg6)) (m ((c : Thread nD τ).loc main_arg7)) ((win0_3.blk t).view.emb y) := by
  obtain ⟨i30, i31, s30, s31⟩ := win3_idx t
  have hy0 : (y 0).val < win0_3.xsize (grid0.coords t) 0 := (y 0).isLt
  have hy1 : (y 1).val < win0_3.xsize (grid0.coords t) 1 := (y 1).isLt
  have hjlt : t.val * 2048 + (y 1).val < 100000 := by rw [s31] at hy1; omega
  let p : Fin 1024 := ⟨(y 0).val, by omega⟩
  let q : Fin 2048 := ⟨(y 1).val, by rw [s31] at hy1; omega⟩
  let j : Fin 100000 := ⟨t.val * 2048 + (y 1).val, hjlt⟩
  have hx : win0_3.xinj (grid0.coords t) y = ix2 p q := by
    funext a; match a with | ⟨0, _⟩ => rfl | ⟨1, _⟩ => rfl
  have he : (win0_3.blk t).view.emb y = ix2 p j := funext fun a => Fin.ext (by
    match a with
    | ⟨0, _⟩ => show win0_3.index t 0 * 1024 + 1 * (y 0).val = (y 0).val; rw [i30]; omega
    | ⟨1, _⟩ => show win0_3.index t 1 * 2048 + 1 * (y 1).val = t.val * 2048 + (y 1).val; rw [i31]; omega)
  rw [hx, he]
  unfold oblk
  rw [Cert.PointValue.pay_apply, bblk_apply m c t q j hy1 rfl]
  simp only [iblk0_apply m c t p, fun k => wblk_apply m c t q k j hy1 rfl]
  rfl

/-- Every index of the result array lies in the part some point writes back: column `j` in point `j / 2048`'s. -/
theorem cover3 (i : S1024x100000.Idx) : ∃ t : Fin cfg0.N, (cfg0.win 3).flush t = true ∧ i ∈ ((cfg0.win 3).blk t).view.set := by
  have hi0 : (i 0).val < 1024 := (i 0).isLt
  have hi1 : (i 1).val < 100000 := (i 1).isLt
  have ht : (i 1).val / 2048 < cfg0.N := by rw [gridN]; omega
  obtain ⟨i30, i31, s30, s31⟩ := win3_idx ⟨(i 1).val / 2048, ht⟩
  refine ⟨⟨(i 1).val / 2048, ht⟩, flush0_3 _, ?_⟩
  show i ∈ ((View.whole main_v40).slice (win0_3.rect ⟨(i 1).val / 2048, ht⟩)).set
  rw [View.set_slice_whole, Rect.mem_set_unit]
  intro a
  match a with
  | ⟨0, _⟩ =>
    show win0_3.index ⟨(i 1).val / 2048, ht⟩ 0 * 1024 ≤ (i 0).val
      ∧ (i 0).val < win0_3.index ⟨(i 1).val / 2048, ht⟩ 0 * 1024 + win0_3.xsize (grid0.coords ⟨(i 1).val / 2048, ht⟩) 0
    rw [i30, s30]; omega
  | ⟨1, _⟩ =>
    show win0_3.index ⟨(i 1).val / 2048, ht⟩ 1 * 2048 ≤ (i 1).val
      ∧ (i 1).val < win0_3.index ⟨(i 1).val / 2048, ht⟩ 1 * 2048 + win0_3.xsize (grid0.coords ⟨(i 1).val / 2048, ht⟩) 1
    rw [i31, s31]
    show (i 1).val / 2048 * 2048 ≤ (i 1).val ∧ (i 1).val < (i 1).val / 2048 * 2048 + min 2048 (100000 - (i 1).val / 2048 * 2048)
    omega

/-! ## The result array -/

/-- After the 49 write-backs the result array is the clamped affine read-out of the state the region found, against
    the table and the bias: `max (∑ k, H[p,k] · W[j,k] + b[j]) 0` at every entry `(p, j)`. -/
theorem final3 (c : Dev nD) : (dats m 0 c).arrAt 3 cfg0.N
      = logitK (V m c main_v38) (m ((c : Thread nD τ).loc main_arg6)) (m ((c : Thread nD τ).loc main_arg7)) := by
  funext i
  refine (dats m 0 c).arrAt_forall_of_cover 3
    (fun i v => v = logitK (V m c main_v38) (m ((c : Thread nD τ).loc main_arg6)) (m ((c : Thread nD τ).loc main_arg7)) i) ?_ ?_ i
  · intro t _ y
    show oblk m c t (win0_3.xinj (grid0.coords t) y)
      = logitK (V m c main_v38) (m ((c : Thread nD τ).loc main_arg6)) (m ((c : Thread nD τ).loc main_arg7)) ((win0_3.blk t).view.emb y)
    exact flushed_entry m c t y
  · intro i
    exact cover3 i

end Cert.KernelIdeal.Gen

end
-- ==== Proof.TailValue.lean ====
import proofs.«417371_j62414464746143_3_alg».proof.Proof.IdealData
import proofs.«417371_j62414464746143_3_alg».proof.Proof.HostValue
import Idealize.ShloMosaic.Lib.StableHlo.Run

/-!
The one host line after the region: the second result is the new state with a leading unit axis. The state's array is
window 0's, an input of the region, so after the region it still holds what the region found.
-/

set_option maxRecDepth 16384

noncomputable section

namespace Cert.KernelIdeal.Gen

open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

/-- The second result after the run: the region-entry contents of the state's array, broadcast to `[1, 1024, 128]`. -/
theorem tail_v41 (c : Dev nD) :
    (Pipeline.afterTail₀ cfgs (dats m) 0 (V0 m) [hostOps1] c main_v41 : S1x1024x128.Idx → Elt Ideal .f32)
      = broadcastInDim (s := S1024x128) S1x1024x128 ![1, 2] bcast_S1024x128_S1x1024x128_1_2 (V m c main_v38 : S1024x128.Idx → Elt Ideal .f32) := by
  unfold Pipeline.afterTail₀
  show StableHlo.after hostOps1 _ (Proc.devRef .tc main_v41) = _
  after_results
  refine congrArg (broadcastInDim (s := S1024x128) (α := Elt Ideal .f32) S1x1024x128 ![1, 2] bcast_S1024x128_S1x1024x128_1_2) ?_
  refine (Pipeline.withArrays_arr spec0 launch0.win.arr_inj c _ _ 0).trans ?_
  exact ((dats m 0 c).arrAt_in 0 rfl _).trans (A_eq m c 0)

end Cert.KernelIdeal.Gen

end
-- ==== Proof.KernelRun.lean ====
import proofs.«417371_j62414464746143_3_alg».proof.Proof.IdealValue
import proofs.«417371_j62414464746143_3_alg».proof.Proof.TailValue

/-!
The idealized kernel program's run with its two results named: the first is
`max(h · W_outᵀ + b_out, 0)` entry by entry (`logitK`) and the second the new state `h` with a leading unit axis,
where `h = hK` of the arguments is the recurrent cell's new state; the arguments end as launched.
-/

set_option maxRecDepth 16384

noncomputable section

namespace Cert.KernelIdeal.Gen

open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The new state of the launch memory `m` on device `c`. -/
abbrev hOf (c : Dev nD) : FVec Ideal S1024x128 .f32 :=
  hK (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- Every weakly fair execution of @main terminates; the results hold `logitK` of the new state and the new state,
    and the arguments what they held. -/
theorem run_values : θ_run defs (onTc (τ := τ) (main (F := Ideal))) ⟨m, fun _ => 0, ρ⟩ (fun r => ∀ c : Dev nD,
      r.2.mem ((c.tc : Thread nD τ).loc main_v40) = logitK (hOf m c) (m ((c.tc : Thread nD τ).loc main_arg6)) (m ((c.tc : Thread nD τ).loc main_arg7))
      ∧ r.2.mem ((c.tc : Thread nD τ).loc main_v41) = broadcastInDim (s := S1024x128) S1x1024x128 ![1, 2] bcast_S1024x128_S1x1024x128_1_2 (hOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).1 3).trans ((final3 m c).trans (by rw [V_main_v38])),
      ((h c).2 main_v41 (Pipeline.mem_restRefs_of main_v41 (by decide) (by decide))).trans ((tail_v41 m c).trans (by rw [V_main_v38])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 1).trans (((dats m 0 c).arrAt_in 1 rfl _).trans ((A_eq m c 1).trans (V_main_arg6 m c))),
      ((h c).2 main_arg7 (Pipeline.mem_restRefs_of main_arg7 (by decide) (by decide))).trans (W_main_arg7 m (dats m) c)⟩)
    (run_main m ρ)

end Cert.KernelIdeal.Gen

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.LibGatherCols.lean ====
/-
  A general lemma, about no particular program, that reads a host gather of COLUMNS at an index.

  • `gather_cols_apply`: E columns of a matrix [f, n] gathered, index array [E,1] (the column index), slice sizes
    [f, 1], the one offset axis first in the result [f, E]: for an index word that is in range (read signed it is
    a < n, so the clamp does nothing), column e of the result is column a of the operand.

  The operand index the gather reads is, on each operand axis, the clamped start plus the batching coordinate plus
  the offset coordinate. On the row axis (kept, not named by the start index map) the start is zero and the offset
  coordinate is the result's row; on the column axis (collapsed, named by the start index map) the offset
  coordinate is zero and the start is the index word read signed and clamped into [0, n-1].
-/
import Idealize.ShloMosaic.PureOps.ShapeOps
import Idealize.ShloMosaic.PureOps.Dims
import Idealize.ShloMosaic.Lib.ValueIdx

noncomputable section

open Idealize.ShloMosaic Idealize.ShloMosaic.ValueIdx

namespace Idealize.ShloMosaic.GatherCols

/-- A gather of E columns of a matrix [f, n] (index array [E,1], slice sizes [f, 1]): column e of the result is the
    column of x named by the index word read signed, clamped into [0, n-1]; stated for an index word that IS in range. -/
theorem gather_cols_apply {α : Type} {f n E : ℕ} (d : GatherDims ⟨2, ![f, n]⟩ ⟨2, ![E, 1]⟩ ⟨2, ![f, E]⟩)
    (h1 : d.offsetDims = [0]) (h2 : d.collapsedSliceDims = [1]) (h3 : d.operandBatchingDims = []) (h4 : d.startIndicesBatchingDims = []) (h5 : d.startIndexMap = [1]) (h6 : d.indexVectorDim = 1) (h7 : d.sliceSizes = ![f, 1])
    (x : (⟨2, ![f, n]⟩ : Shape).Idx → α) (idx : IVec ⟨2, ![E, 1]⟩ 32) (k : Fin f) (e : Fin E) (a : Fin n) (ha : (idx (ix2 e (0 : Fin 1))).toInt = (a.val : ℤ)) :
    Host.gather d x idx (ix2 k e) = x (ix2 k a) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    -- the row axis: no start, no batching, the offset coordinate is the result's row
    show GatherDims.start _ (ix2 k e) idx 0 + GatherDims.batchCoord _ (ix2 k e) 0 + GatherDims.offCoord _ (ix2 k e) 0 = k.val
    rw [GatherDims.batchCoord_eq_zero _ _ _ List.not_mem_nil]
    unfold GatherDims.start GatherDims.offCoord
    rw [dif_neg (show (0 : Fin 2) ∉ [(1 : Fin 2)] by decide),
      dif_pos (by simp [GatherDims.sKept, Shape.kept])]
    simp only [Nat.add_zero, Nat.zero_add]
    rfl
  | ⟨1, _⟩ =>
    -- the column axis: collapsed, so no offset; the start is the index word, which the clamp leaves alone
    show GatherDims.start _ (ix2 k e) idx 1 + GatherDims.batchCoord _ (ix2 k e) 1 + GatherDims.offCoord _ (ix2 k e) 1 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![f, n]⟩) (si := ⟨2, ![E, 1]⟩) (t := ⟨2, ![f, E]⟩)
        ⟨[0], [1], [], [], [1], 1, ![f, 1], wf⟩ (ix2 k e)
        ⟨List.idxOf (1 : Fin 2) [1], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega

end Idealize.ShloMosaic.GatherCols

end
-- ==== Proof.GatherBridge.lean ====
import proofs.«417371_j62414464746143_3_alg».proof.Proof.HostSpec
import proofs.«417371_j62414464746143_3_alg».proof.Proof.Gen.ReferenceIdeal.Read
import proofs.«417371_j62414464746143_3_alg».proof.Proof.Gen.Pre_finite_inputs
import proofs.«417371_j62414464746143_3_alg».proof.Proof.LibScatterRead
import proofs.«417371_j62414464746143_3_alg».proof.Proof.LibGatherCols
import Idealize.ShloMosaic.Lib.ReduceAll
import Idealize.ShloMosaic.Lib.ValueIdx
import Idealize.ShloMosaic.Lib.Pipeline.Value

/-!
The index bridge between the two input projections.

The kernel program gathers columns of the `[384, 100000]` input weights: it moves a negative index word up by the
vocabulary's size, masks the columns whose moved index is outside `[0, 99999]` with a fill word, transposes and adds the
bias. The reference gathers rows of the transposed weights at the same moved indices, with no mask, and adds the same
bias. A gather reads its start index signed and clamped into the operand.

Under the precondition's range conjunct every index word `w` has `0 ≤ w < 100000`. Then nothing is moved (the word is
not negative), the mask bit is one (the word is in range), the clamp does nothing, and both sides read column `w` of
the weights: entry `(b, k)` of either projection is `x2 (k, w_b) + x3 k`.

* `idx_in_range`: the precondition's last conjunct, decoded: every index word lies in `[0, 99999]`.
* `giK_eq_ref`: under that range the kernel program's input projection is the reference's.
-/

set_option maxRecDepth 16384

noncomputable section

namespace Cert.Bridge

open Idealize.ShloMosaic Idealize.ShloMosaic.ValueIdx

/-! ## Words -/

theorem toInt_zero32 : (0#32 : BitVec 32).toInt = 0 := by decide
theorem toInt_100000 : (100000#32 : BitVec 32).toInt = 100000 := by decide
theorem toInt_99999 : (99999#32 : BitVec 32).toInt = 99999 := by decide

/-! ## The precondition's range conjunct -/

/-- The precondition's last conjunct is the conjunction over all index words `w` of `0 ≤ w ∧ w < 100000`, compared signed:
    when the precondition is all ones, every index word lies in `[0, 99999]`. -/
theorem idx_in_range (a0 : IVec Cert.Pre_finite_inputs.S1024 32) (a1 : FVec Ideal Cert.Pre_finite_inputs.S1x1024x128 .f32)
    (a2 : FVec Ideal Cert.Pre_finite_inputs.S384x100000 .f32) (a3 : FVec Ideal Cert.Pre_finite_inputs.S384 .f32)
    (a4 : FVec Ideal Cert.Pre_finite_inputs.S384x128 .f32) (a5 : FVec Ideal Cert.Pre_finite_inputs.S384 .f32)
    (a6 : FVec Ideal Cert.Pre_finite_inputs.S100000x128 .f32) (a7 : FVec Ideal Cert.Pre_finite_inputs.S100000 .f32)
    (h : Cert.Pre_finite_inputs.fn (F := Ideal) a0 a1 a2 a3 a4 a5 a6 a7 = fun _ => 1#1) :
    ∀ i : Fin 1024, 0 ≤ (a0 (ix1 i)).toInt ∧ (a0 (ix1 i)).toInt < 100000 := by
  intro i
  haveI : Subsingleton Cert.Pre_finite_inputs.S_.Idx := ⟨fun a b => funext fun d => d.elim0⟩
  have h0 := congrFun h ix0
  dsimp only [Cert.Pre_finite_inputs.fn, Cert.Pre_finite_inputs.fn_part1, Cert.Pre_finite_inputs.fn_part2] at h0
  -- the last `and`: keep its right operand, the reduction over the index words
  have h1 := (IntOp.andi_eq_one.1 h0).2
  -- a conjunction over all the words that is one: the element at `i` is one
  have h2 := Host.reduce_andi_all _ _ _ _ _ h1 (ix1 i)
  obtain ⟨hge, hlt⟩ := IntOp.andi_eq_one.1 h2
  have hge' : (0#32 : BitVec 32).toInt ≤ (a0 (ix1 i)).toInt := IntOp.cmpi_sge.1 hge
  have hlt' : (a0 (ix1 i)).toInt < (100000#32 : BitVec 32).toInt := IntOp.cmpi_slt.1 hlt
  rw [toInt_zero32] at hge'
  rw [toInt_100000] at hlt'
  exact ⟨hge', hlt'⟩

/-! ## A reduction by `and` of an array of ones -/

/-- A left fold by `and` from one over words that are all one is one. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_of_all_one f l _ ?_ (fun n hn => hl n (List.mem_cons_of_mem _ hn))
    rw [h, hl a (List.mem_cons.2 (Or.inl rfl))]
    decide

/-- A reduction by `and`, from one, of an array whose every element is one is one at every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all_one x _ _ hinit (fun i _ => hx i)

/-! ## The kernel program's start indices and mask under the range -/

section Kernel
open Cert.KernelIdeal Cert.KernelIdeal.Gen

/-- A word that is not negative is not moved: the start index of row `b` is the index word itself. -/
theorem idxK_apply (x0 : IVec S1024 32) (b : Fin 1024) (hb : 0 ≤ (x0 (ix1 b)).toInt) :
    idxK x0 (ix2 b (0 : Fin 1)) = x0 (ix1 b) := by
  unfold idxK
  refine (broadcastInDim_apply _ bcast_S1024_S1024x1_0 _ (ix2 b (0 : Fin 1)) (ix1 b) (fun a => match a with
    | ⟨0, _⟩ => by show b.val = if (1024 : Nat) = 1 then 0 else b.val; rw [if_neg (by decide)])).trans ?_
  show Scalar.select (IntOp.cmpi .slt (x0 (ix1 b)) 0#32) (IntOp.addi (x0 (ix1 b)) 100000#32) (x0 (ix1 b)) = x0 (ix1 b)
  have hc : IntOp.cmpi .slt (x0 (ix1 b)) 0#32 = 0#1 := by
    apply eq_zero_of_ne_one
    rw [IntOp.cmpi_slt, toInt_zero32]
    omega
  rw [hc, select_zero]

/-- Every index word in `[0, 99999]`: every mask bit is one. -/
theorem maskK_apply (x0 : IVec S1024 32) (hx : ∀ i : Fin 1024, 0 ≤ (x0 (ix1 i)).toInt ∧ (x0 (ix1 i)).toInt < 100000) (b : Fin 1024) :
    maskK x0 (ix1 b) = 1#1 := by
  unfold maskK
  refine reduce_andi_of_all_one _ _ _ _ rfl (fun i => ?_) _
  obtain ⟨c, rfl⟩ : ∃ c : Fin 1024, i = ix2 c (0 : Fin 1) :=
    ⟨i 0, funext fun a => match a with
      | ⟨0, _⟩ => rfl
      | ⟨1, _⟩ => Fin.ext (by have h1 : (i 1).val < 1 := (i 1).isLt; show (i 1).val = 0; omega)⟩
  show IntOp.andi (IntOp.cmpi .sge (idxK x0 (ix2 c (0 : Fin 1))) 0#32) (IntOp.cmpi .sle (idxK x0 (ix2 c (0 : Fin 1))) 99999#32) = 1#1
  rw [idxK_apply x0 c (hx c).1, IntOp.andi_eq_one, IntOp.cmpi_sge, IntOp.cmpi_sle, toInt_zero32, toInt_99999]
  have := hx c
  omega

/-- The column an index word names, as a column number of the weights. -/
def col (x0 : IVec S1024 32) (hx : ∀ i : Fin 1024, 0 ≤ (x0 (ix1 i)).toInt ∧ (x0 (ix1 i)).toInt < 100000) (b : Fin 1024) : Fin 100000 :=
  ⟨(x0 (ix1 b)).toInt.toNat, by have := hx b; omega⟩

theorem col_spec (x0 : IVec S1024 32) (hx : ∀ i : Fin 1024, 0 ≤ (x0 (ix1 i)).toInt ∧ (x0 (ix1 i)).toInt < 100000) (b : Fin 1024) :
    (x0 (ix1 b)).toInt = ((col x0 hx b).val : ℤ) := by
  show _ = (((x0 (ix1 b)).toInt.toNat : ℕ) : ℤ)
  rw [Int.toNat_of_nonneg (hx b).1]

variable {F : FTy → Type} [FloatOps F]

/-- The start indices are the same array in the two programs: the same operations on the index words. -/
theorem idxK_eq_ref (x0 : IVec S1024 32) : idxK x0 = Cert.ReferenceIdeal.Read.val_main_v6 (F := F) x0 := rfl

/-- Entry `(b, k)` of the kernel program's gathered, masked and transposed columns is entry `(k, w_b)` of the weights. -/
theorem gathK_apply (x0 : IVec S1024 32) (x2 : FVec F S384x100000 .f32)
    (hx : ∀ i : Fin 1024, 0 ≤ (x0 (ix1 i)).toInt ∧ (x0 (ix1 i)).toInt < 100000) (b : Fin 1024) (k : Fin 384) :
    transpose S1024x384 [1, 0]
      (select (broadcastInDim S384x1024 ![1] bcast_S1024_S384x1024_1 (maskK x0))
        (Host.gather gather_S384x100000_S1024x1_S384x1024_0_1_n_n_1_1_3841 x2 (idxK x0))
        (broadcastInDim S384x1024 ![] bcast_S_S384x1024 (constant S_ .f32 0x7FC00000#32)))
      transposes_S384x1024_S1024x384_1_0 (ix2 b k) = x2 (ix2 k (col x0 hx b)) := by
  -- the transpose at (b, k) is its operand at (k, b)
  refine (transpose_apply [1, 0] _ transposes_S384x1024_S1024x384_1_0 (ix2 b k) (ix2 k b) (fun c => match c with
    | ⟨0, _⟩ => rfl
    | ⟨1, _⟩ => rfl)).trans ?_
  refine (select_apply _ _ _ _).trans ?_
  -- the mask bit of column b is one
  have hm : broadcastInDim S384x1024 ![1] bcast_S1024_S384x1024_1 (maskK x0) (ix2 k b) = 1#1 := by
    refine (broadcastInDim_apply _ bcast_S1024_S384x1024_1 _ (ix2 k b) (ix1 b) (fun a => match a with
      | ⟨0, _⟩ => by show b.val = if (1024 : Nat) = 1 then 0 else b.val; rw [if_neg (by decide)])).trans ?_
    exact maskK_apply x0 hx b
  rw [hm, select_one]
  -- the gathered column
  exact GatherCols.gather_cols_apply _ rfl rfl rfl rfl rfl rfl rfl x2 (idxK x0) k b (col x0 hx b)
    (by rw [idxK_apply x0 b (hx b).1]; exact col_spec x0 hx b)

end Kernel

/-- Entry `(b, k)` of the reference's gathered rows of the transposed weights is entry `(k, w_b)` of the weights. -/
theorem gathR_apply {F : FTy → Type} [FloatOps F] (x0 : IVec Cert.KernelIdeal.S1024 32) (x2 : FVec F Cert.KernelIdeal.S384x100000 .f32)
    (hx : ∀ i : Fin 1024, 0 ≤ (x0 (ix1 i)).toInt ∧ (x0 (ix1 i)).toInt < 100000) (b : Fin 1024) (k : Fin 384) :
    Cert.ReferenceIdeal.Read.val_main_v7 (F := F) x0 x2 (ix2 b k) = x2 (ix2 k (col x0 hx b)) := by
  unfold Cert.ReferenceIdeal.Read.val_main_v7
  refine (ScatterRead.gather_rows_apply _ rfl rfl rfl rfl rfl rfl rfl _ _ b k (col x0 hx b) ?_).trans ?_
  · rw [← idxK_eq_ref (F := F) x0, idxK_apply x0 b (hx b).1]
    exact col_spec x0 hx b
  · refine (Cert.ReferenceIdeal.Read.val_main_v0_apply x2 _).trans ?_
    refine congrArg x2 (funext fun a => match a with
      | ⟨0, _⟩ => rfl
      | ⟨1, _⟩ => rfl)

/-- THE BRIDGE: with every index word in `[0, 99999]` the kernel program's input projection is the reference's. -/
theorem giK_eq_ref {F : FTy → Type} [FloatOps F] (x0 : IVec Cert.KernelIdeal.S1024 32) (x2 : FVec F Cert.KernelIdeal.S384x100000 .f32)
    (x3 : FVec F Cert.KernelIdeal.S384 .f32)
    (hx : ∀ i : Fin 1024, 0 ≤ (x0 (ix1 i)).toInt ∧ (x0 (ix1 i)).toInt < 100000) :
    Cert.KernelIdeal.Gen.giK (F := F) x0 x2 x3 = Cert.ReferenceIdeal.Read.val_main_v10 (F := F) x0 x2 x3 := by
  funext j
  obtain ⟨b, k, rfl⟩ : ∃ (b : Fin 1024) (k : Fin 384), j = ix2 b k := ⟨j 0, j 1, eq_ix2 j⟩
  refine Eq.trans ?_ (Cert.ReferenceIdeal.Read.val_main_v10_apply x0 x2 x3 (ix2 b k)).symm
  unfold Cert.KernelIdeal.Gen.giK
  refine congrArg₂ FloatOps.addf ?_ ?_
  · exact (gathK_apply x0 x2 hx b k).trans (gathR_apply x0 x2 hx b k).symm
  · rfl

end Cert.Bridge

end
-- ==== Proof.RefBridge.lean ====
/-
  The kernel program's host-side values against the reference's stages, at the ideal instance.

  The recurrent cell: the two programs compute the hidden projection, the previous state and the cell
  (r = σ(gi_r + gh_r), z = σ(gi_z + gh_z), n = tanh(gi_n + r · gh_n), h = (1 - z) · n + z · h0) by the
  same operations in the same order, so once their input projections agree their new states are the same
  array. The read-out: the reference's first result is, as a whole array, the clamped affine read-out
  max (∑ k, state[p,k] * table[j,k] + bias[j]) 0 of its own state.
-/
import proofs.«417371_j62414464746143_3_alg».proof.Proof.HostSpec
import proofs.«417371_j62414464746143_3_alg».proof.Proof.Gen.ReferenceIdeal.Read
import proofs.«417371_j62414464746143_3_alg».proof.Proof.PointValue
import proofs.«417371_j62414464746143_3_alg».proof.Proof.LogitSpec
import Idealize.ShloMosaic.Lib.ValueIdx

set_option maxRecDepth 16384

noncomputable section

open scoped BigOperators

namespace Cert.RefBridge

open Idealize.ShloMosaic Idealize.ShloMosaic.ValueIdx
open Cert.ReferenceIdeal.Read
open Cert.KernelIdeal.Gen (hK giK ghK h0K cellK gateK logitK)

/-! ## The recurrent cell -/

/-- The previous state is the reference's reshaped argument. -/
theorem h0K_eq_ref (x1 : FVec Ideal Cert.KernelIdeal.S1x1024x128 .f32) :
    h0K (F := Ideal) x1 = val_main_v11 (F := Ideal) x1 := rfl

/-- The hidden projection is the reference's: the same product and the same bias rows. -/
theorem ghK_eq_ref (x1 : FVec Ideal Cert.KernelIdeal.S1x1024x128 .f32) (x4 : FVec Ideal Cert.KernelIdeal.S384x128 .f32) (x5 : FVec Ideal Cert.KernelIdeal.S384 .f32) :
    ghK (F := Ideal) x1 x4 x5 = val_main_v16 (F := Ideal) x1 x4 x5 := by
  unfold ghK h0K val_main_v16 val_main_v15 val_main_v14 val_main_v13 val_main_v12 val_main_v11
  rfl

/-- The cell over the reference's two projections and previous state is the reference's new state. -/
theorem cellK_eq_ref (x0 : IVec Cert.KernelIdeal.S1024 32) (x1 : FVec Ideal Cert.KernelIdeal.S1x1024x128 .f32) (x2 : FVec Ideal Cert.KernelIdeal.S384x100000 .f32) (x3 : FVec Ideal Cert.KernelIdeal.S384 .f32) (x4 : FVec Ideal Cert.KernelIdeal.S384x128 .f32) (x5 : FVec Ideal Cert.KernelIdeal.S384 .f32) :
    cellK (F := Ideal) (val_main_v10 (F := Ideal) x0 x2 x3) (val_main_v16 (F := Ideal) x1 x4 x5) (val_main_v11 (F := Ideal) x1)
      = val_main_v44 (F := Ideal) x0 x1 x2 x3 x4 x5 := by
  unfold cellK gateK val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_cst val_main_cst_1 val_main_cst_2 val_main_cst_3 val_main_cst_4
  rfl

/-- The kernel program's new state is the reference's once the input projections agree. -/
theorem hK_eq_ref (x0 : IVec Cert.KernelIdeal.S1024 32) (x1 : FVec Ideal Cert.KernelIdeal.S1x1024x128 .f32) (x2 : FVec Ideal Cert.KernelIdeal.S384x100000 .f32) (x3 : FVec Ideal Cert.KernelIdeal.S384 .f32) (x4 : FVec Ideal Cert.KernelIdeal.S384x128 .f32) (x5 : FVec Ideal Cert.KernelIdeal.S384 .f32)
    (hgi : Cert.KernelIdeal.Gen.giK (F := Ideal) x0 x2 x3 = Cert.ReferenceIdeal.Read.val_main_v10 (F := Ideal) x0 x2 x3) :
    Cert.KernelIdeal.Gen.hK (F := Ideal) x0 x1 x2 x3 x4 x5 = Cert.ReferenceIdeal.Read.val_main_v44 (F := Ideal) x0 x1 x2 x3 x4 x5 := by
  unfold hK
  rw [hgi, ghK_eq_ref, h0K_eq_ref]
  exact cellK_eq_ref x0 x1 x2 x3 x4 x5

/-! ## The read-out -/

/-- The reference's first result is the clamped affine read-out of its own state, as whole arrays. -/
theorem logitK_ref (x0 : (⟨Cert.ReferenceIdeal.S1024, .i32⟩ : BufTy).Contents (Elt Ideal)) (x1 : (⟨Cert.ReferenceIdeal.S1x1024x128, .f32⟩ : BufTy).Contents (Elt Ideal)) (x2 : (⟨Cert.ReferenceIdeal.S384x100000, .f32⟩ : BufTy).Contents (Elt Ideal)) (x3 : (⟨Cert.ReferenceIdeal.S384, .f32⟩ : BufTy).Contents (Elt Ideal)) (x4 : (⟨Cert.ReferenceIdeal.S384x128, .f32⟩ : BufTy).Contents (Elt Ideal)) (x5 : (⟨Cert.ReferenceIdeal.S384, .f32⟩ : BufTy).Contents (Elt Ideal)) (x6 : (⟨Cert.ReferenceIdeal.S100000x128, .f32⟩ : BufTy).Contents (Elt Ideal)) (x7 : (⟨Cert.ReferenceIdeal.S100000, .f32⟩ : BufTy).Contents (Elt Ideal)) :
    logitK (Cert.ReferenceIdeal.Read.val_main_v44 (F := Ideal) x0 x1 x2 x3 x4 x5) x6 x7
      = Cert.ReferenceIdeal.Read.val_main_v50 (F := Ideal) x0 x1 x2 x3 x4 x5 x6 x7 := by
  funext i
  obtain ⟨p, j, rfl⟩ : ∃ (p : Fin 1024) (j : Fin 100000), i = ix2 p j := ⟨i 0, i 1, eq_ix2 i⟩
  exact (Cert.PointValue.ref_apply x0 x1 x2 x3 x4 x5 x6 x7 p j).symm

end Cert.RefBridge

end
-- ==== Proof.lean ====
/- The proof of `Cert.Claim`: the word-level kernel program, its idealization and the idealized reference each run to
   the end and leave their arguments unchanged, and the two idealized programs end with equal results.

   The programs: a one-step gated recurrent cell over an embedding gather, then `relu(h · W_outᵀ + b_out)` over a
   vocabulary of 100000. The reference gathers row `input[b]` of the transposed input weights; the kernel program
   gathers column `input[b]` of the weights and replaces a column whose index is out of range by a fill word. Under
   the stated domain `0 ≤ input < 100000` the two gathers read the same entries, the cells are the same operations,
   and so the new states `h` agree. The kernel program computes the last product on a grid of 49 column blocks of
   2048 (the last one 1696 wide inside the array): entry `(p, j)` of the result is `max(Σₖ h[p,k] · W_out[j,k] + b_out[j], 0)`
   on both sides, a sum over the same 128 terms, so no law of the extended reals beyond reading both sides at an
   entry is used. The word-level program's frame is proved from relational proof data (its product is not a
   function of the rows inside the array alone), the idealized one's from exact data. -/
import proofs.«417371_j62414464746143_3_alg».proof.Defs
import proofs.«417371_j62414464746143_3_alg».proof.Proof.Gen.Kernel
import proofs.«417371_j62414464746143_3_alg».proof.Proof.Gen.Kernel.Skeleton
import proofs.«417371_j62414464746143_3_alg».proof.Proof.Gen.Kernel.Launch
import proofs.«417371_j62414464746143_3_alg».proof.Proof.Gen.Kernel.Points
import proofs.«417371_j62414464746143_3_alg».proof.Proof.Gen.Kernel.Frame
import proofs.«417371_j62414464746143_3_alg».proof.Proof.Gen.KernelIdeal
import proofs.«417371_j62414464746143_3_alg».proof.Proof.Gen.KernelIdeal.Skeleton
import proofs.«417371_j62414464746143_3_alg».proof.Proof.Gen.KernelIdeal.Launch
import proofs.«417371_j62414464746143_3_alg».proof.Proof.Gen.KernelIdeal.Points
import proofs.«417371_j62414464746143_3_alg».proof.Proof.Gen.KernelIdeal.Frame
import proofs.«417371_j62414464746143_3_alg».proof.Proof.Gen.ReferenceIdeal
import proofs.«417371_j62414464746143_3_alg».proof.Proof.Gen.ReferenceIdeal.Run
import proofs.«417371_j62414464746143_3_alg».proof.Proof.Gen.ReferenceIdeal.Read
import proofs.«417371_j62414464746143_3_alg».proof.Proof.Gen.Pre_finite_inputs
import proofs.«417371_j62414464746143_3_alg».proof.Proof.KernelFrame
import proofs.«417371_j62414464746143_3_alg».proof.Proof.KernelRun
import proofs.«417371_j62414464746143_3_alg».proof.Proof.GatherBridge
import proofs.«417371_j62414464746143_3_alg».proof.Proof.RefBridge
import Idealize.ShloMosaic.Adequacy
import Idealize.ShloMosaic.Init

set_option maxRecDepth 16384

noncomputable section

namespace Cert.Proof

open Idealize.ShloMosaic Idealize.SL.Sem Idealize.ShloMosaic.ValueIdx

/-- The word-level program runs and keeps its arguments. -/
theorem frame_Kernel : Cert.frame_Kernel := fun m ρ _ => Cert.Kernel.Gen.frame_rel (F := Bits) m ρ

/-- The idealized kernel program runs and keeps its arguments: its run with the results forgotten. -/
theorem frame_KernelIdeal : Cert.frame_KernelIdeal := fun m ρ _ =>
  (θ_run Cert.KernelIdeal.defs _ _).mono (fun _ h c => (h c).2.2) (Cert.KernelIdeal.Gen.run_values m ρ)

/-- The reference runs and keeps its arguments: its run with the results forgotten. -/
theorem frame_ReferenceIdeal : Cert.frame_ReferenceIdeal := fun m ρ _ =>
  (θ_run Cert.ReferenceIdeal.defs _ _).mono (fun _ h c => (h c).2.2) (Cert.ReferenceIdeal.Value.run (F := Ideal) m ρ)

/-- The two idealized programs end with equal results: the reference's stages `val_main_v50` and `val_main_v51` at
    the kernel program's arguments. -/
theorem algebraic : Cert.algebraic_KernelIdeal_ReferenceIdeal := by
  intro m ρ m' ρ' hpre hagree
  -- the index words lie in the vocabulary
  have hx : ∀ c : Dev Cert.KernelIdeal.nD, ∀ i : Fin 1024,
      0 ≤ (m ((c.tc : Thread Cert.KernelIdeal.nD Cert.KernelIdeal.τ).loc Cert.KernelIdeal.main_arg0) (ix1 i)).toInt
      ∧ (m ((c.tc : Thread Cert.KernelIdeal.nD Cert.KernelIdeal.τ).loc Cert.KernelIdeal.main_arg0) (ix1 i)).toInt < 100000 :=
    fun c => Cert.Bridge.idx_in_range _ _ _ _ _ _ _ _ (hpre c)
  -- so the kernel program's new state is the reference's stage for it
  have hH : ∀ c : Dev Cert.KernelIdeal.nD, Cert.KernelIdeal.Gen.hOf m c
      = Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    fun c => Cert.RefBridge.hK_eq_ref _ _ _ _ _ _ (Cert.Bridge.giK_eq_ref _ _ _ (hx c))
  refine ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨?_, ?_, (h c).2.2⟩) (Cert.KernelIdeal.Gen.run_values m ρ)
    · rw [(h c).1, hH c]; exact Cert.RefBridge.logitK_ref _ _ _ _ _ _ _ _
    · rw [(h c).2.1, hH c]; rfl
  · refine (θ_run Cert.ReferenceIdeal.defs _ _).mono (fun r h c => ⟨?_, ?_, (h c).2.2⟩) (Cert.ReferenceIdeal.Value.run (F := Ideal) m' ρ')
    · rw [(h c).1, Cert.ReferenceIdeal.Read.val_main_v50_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
    · rw [(h c).2.1, Cert.ReferenceIdeal.Read.val_main_v51_eq, (hagree c).1, (hagree c).2.1, (hagree c).2.2.1, (hagree c).2.2.2.1,
        (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
